-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x2048x1024 .f32) (main_arg1 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S2x2048x1024 : Shape := ⟨3, ![2, 2048, 1024]⟩
abbrev S1024x1024 : Shape := ⟨2, ![1024, 1024]⟩
abbrev S4096x1024 : Shape := ⟨2, ![4096, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x2048x64 : Shape := ⟨3, ![1, 2048, 64]⟩
abbrev S1x512x64 : Shape := ⟨3, ![1, 512, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S2x2048x16x64, .bf16⟩
  | .hbm, ⟨5, _⟩ => ⟨S2x16x2048x64, .bf16⟩
  | .hbm, ⟨6, _⟩ => ⟨S32x2048x64, .bf16⟩
  | .hbm, ⟨7, _⟩ => ⟨S32x2048x64, .bf16⟩
  | .hbm, ⟨8, _⟩ => ⟨S2x16x2048x64, .bf16⟩
  | .hbm, ⟨9, _⟩ => ⟨S2x2048x16x64, .bf16⟩
  | .hbm, ⟨10, _⟩ => ⟨S4096x1024, .bf16⟩
  | .hbm, ⟨11, _⟩ => ⟨S4096x1024, .f32⟩
  | .hbm, ⟨12, _⟩ => ⟨S2x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x512x64, .bf16⟩
  | .local _ .vmem, ⟨8, _⟩ => ⟨S1x512x64, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 4], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0_0 : Index := 0#32
  ![0, v2.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x1024_S4096x1024 : S2x2048x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  inb_S1x512x64_S1x512x64_0_0_0 : ∀ a, (![0, 0, 0] : Fin 3 → Nat) a + S1x512x64.size a ≤ S1x512x64.size a
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512x64.size a ≤ S1x2048x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x64.size a ≤ S32x2048x64.size a
  hwx1_0 : ∀ i : grid1.Coords, EltTy.bits .bf16 = 32 ∨ (Rect.block (s := S32x2048x64) S1x2048x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S32x2048x64.size a
  hwx1_1 : ∀ i : grid1.Coords, EltTy.bits .bf16 = 32 ∨ (Rect.block (s := S32x2048x64) S1x512x64.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .bf16 = 32 ∨ (Rect.block (s := S4096x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x1024.size a
  hwx2_2 : ∀ i : grid2.Coords, EltTy.bits .f32 = 32 ∨ (Rect.block (s := S4096x1024) S1024x1024.size (cc2_transform_2 i) (hinb2_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S1x2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v8) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S2x2048x1024, .f32⟩
  | .hbm, ⟨3, _⟩ => ⟨S2x2048x16x64, .f32⟩
  | .hbm, ⟨4, _⟩ => ⟨S2x16x2048x64, .f32⟩
  | .hbm, ⟨5, _⟩ => ⟨S2x16x2048x2048, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x16x2048, .f32⟩
  | .hbm, ⟨11, _⟩ => ⟨S_, .f32⟩
  | .hbm, ⟨12, _⟩ => ⟨S2x16x2048, .f32⟩
  | .hbm, ⟨13, _⟩ => ⟨S2x16x2048, .f32⟩
  | .hbm, ⟨14, _⟩ => ⟨S2x16x2048x1, .f32⟩
  | .hbm, ⟨15, _⟩ => ⟨S2x16x2048x2048, .f32⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x64, .f32⟩
  | .hbm, ⟨24, _⟩ => ⟨S2x2048x16x64, .f32⟩
  | .hbm, ⟨25, _⟩ => ⟨S2x2048x1024, .f32⟩
  | .hbm, ⟨26, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.Spec.lean ====
/-
  Multi-head self-attention in which one weight matrix serves as the query, key and value projection and, transposed,
  as the output projection, written as functions on extended-real arrays.

  For tokens X (2 × 2048 × 1024) and weights W (1024 × 1024):
    Z (b,n,e)   = ∑_d X (b,n,d) · W (e,d)                         (the shared projection, X · Wᵀ)
    A_{b,h} (n,k) = Z (b,n,64h+k)                                    (16 heads of width 64)
    S (n,m)     = ⟨A n, A m⟩ scaled by c                            (scores of one head)
    P (n,m)     = exp (S (n,m) − max_m S (n,m))
    O (n,k)     = (∑_m P (n,m) · A (m,k)) / ∑_m P (n,m)            (softmax-weighted mean of the rows)
    out (b,n,d) = ∑_e O_{b,e/64} (n, e mod 64) · W (e,d)          (the output projection, · W)

  Two spellings of one head are kept apart: `attnK` scales the query row before the inner product and divides the
  weighted sum once; `attnR` scales the inner product and divides every weight before the sum.
  The array-level functions `flat`, `heads`, `unheads`, `unflat` are the row-major re-layouts between the
  token array, the 4096 × 1024 matrix of all tokens, and the 32 × 2048 × 64 array of all heads.
-/
import proofs.«412328_j29764123361749_3_alg».proof.Proof.LibRows
import Idealize.ShloMosaic.Lib.ValueIdx
import Idealize.ShloMosaic.PureOps.Ideal

noncomputable section

namespace Cert.Attn

open Idealize.ShloMosaic Idealize.ShloMosaic.ValueIdx Idealize.ShloMosaic.Rows

/-- Tokens, and the result: batch × position × feature. -/
abbrev Tok := (⟨3, ![2, 2048, 1024]⟩ : Shape).Idx → EReal
/-- The weights, one row per projected feature. -/
abbrev Wgt := (⟨2, ![1024, 1024]⟩ : Shape).Idx → EReal
/-- All tokens as the rows of one matrix. -/
abbrev Flat := (⟨2, ![4096, 1024]⟩ : Shape).Idx → EReal
/-- All heads: (batch, head) × position × head feature. -/
abbrev Heads := (⟨3, ![32, 2048, 64]⟩ : Shape).Idx → EReal

/-! ## Coordinates of the re-layouts -/

def rowB (r : Fin 4096) : Fin 2 := ⟨r.val / 2048, by have := r.isLt; omega⟩
def rowN (r : Fin 4096) : Fin 2048 := ⟨r.val % 2048, by omega⟩
def mkRow (b : Fin 2) (n : Fin 2048) : Fin 4096 := ⟨b.val * 2048 + n.val, by have := b.isLt; have := n.isLt; omega⟩
def colH (e : Fin 1024) : Fin 16 := ⟨e.val / 64, by have := e.isLt; omega⟩
def colK (e : Fin 1024) : Fin 64 := ⟨e.val % 64, by omega⟩
def mkCol (h : Fin 16) (k : Fin 64) : Fin 1024 := ⟨h.val * 64 + k.val, by have := h.isLt; have := k.isLt; omega⟩
def grpB (g : Fin 32) : Fin 2 := ⟨g.val / 16, by have := g.isLt; omega⟩
def grpH (g : Fin 32) : Fin 16 := ⟨g.val % 16, by omega⟩
def mkGrp (b : Fin 2) (h : Fin 16) : Fin 32 := ⟨b.val * 16 + h.val, by have := b.isLt; have := h.isLt; omega⟩

/-! ## One head -/

section Head
variable {M D : ℕ}

/-- Scores of one query row `q` against every row of the table `a`, the query scaled first. -/
def scoreQ (c : EReal) (q : Fin D → EReal) (a : Fin M → Fin D → EReal) (m : Fin M) : EReal := ∑ k : Fin D, (q k * c) * a m k

/-- One query row attended over the table: the weighted sum of the table's rows divided once by the sum of the weights. -/
def attnQ (c : EReal) (q : Fin D → EReal) (a : Fin M → Fin D → EReal) (k : Fin D) : EReal :=
  Ideal.div (∑ m : Fin M, Ideal.exp (scoreQ c q a m - rowMax (scoreQ c q a)) * a m k)
    (∑ m : Fin M, Ideal.exp (scoreQ c q a m - rowMax (scoreQ c q a)))

/-- Scores with the query row scaled first, the query being row `n` of the table itself. -/
def scoreK (c : EReal) (a : Fin M → Fin D → EReal) (n m : Fin M) : EReal := scoreQ c (a n) a m

/-- One head, the weighted sum divided once by the sum of the weights. -/
def attnK (c : EReal) (a : Fin M → Fin D → EReal) (n : Fin M) (k : Fin D) : EReal := attnQ c (a n) a k

/-- Scores with the inner product scaled. -/
def scoreR (c : EReal) (a : Fin M → Fin D → EReal) (n m : Fin M) : EReal := (∑ k : Fin D, a n k * a m k) * c

/-- One head, every weight divided by the sum of the weights before the weighted sum. -/
def attnR (c : EReal) (a : Fin M → Fin D → EReal) (n : Fin M) (k : Fin D) : EReal :=
  ∑ m : Fin M, Ideal.div (Ideal.exp (scoreR c a n m - rowMax (scoreR c a n)))
    (∑ j : Fin M, Ideal.exp (scoreR c a n j - rowMax (scoreR c a n))) * a m k

end Head

/-! ## The two projections -/

/-- X · Wᵀ: entry (r, e) is ∑_d X (r,d) · W (e,d). -/
def projT (X : Flat) (Wm : Wgt) : Flat := fun i => ∑ d : Fin 1024, X (ix2 (i 0) d) * Wm (ix2 (i 1) d)

/-- Y · W: entry (r, d) is ∑_e Y (r,e) · W (e,d). -/
def projP (Y : Flat) (Wm : Wgt) : Flat := fun i => ∑ e : Fin 1024, Y (ix2 (i 0) e) * Wm (ix2 e (i 1))

/-! ## The re-layouts -/

/-- Tokens as rows: row 2048·b + n is token (b, n). -/
def flat (X : Tok) : Flat := fun i => X (ix3 (rowB (i 0)) (rowN (i 0)) (i 1))

/-- Rows split into heads: head group 16·b + h, position n, feature k is entry (2048·b + n, 64·h + k). -/
def heads (Y : Flat) : Heads := fun i => Y (ix2 (mkRow (grpB (i 0)) (i 1)) (mkCol (grpH (i 0)) (i 2)))

/-- Every head attended with itself as query, key and value table. -/
def attnAll (c : EReal) (A : Heads) : Heads := fun i => attnK c (fun m k => A (ix3 (i 0) m k)) (i 1) (i 2)

/-- Heads joined back into rows: entry (2048·b + n, e) is head group 16·b + e/64, position n, feature e mod 64. -/
def unheads (O : Heads) : Flat := fun i => O (ix3 (mkGrp (rowB (i 0)) (colH (i 1))) (rowN (i 0)) (colK (i 1)))

/-- Rows as tokens again. -/
def unflat (Y : Flat) : Tok := fun i => Y (ix2 (mkRow (i 0) (i 1)) (i 2))

/-- The whole operator in the first spelling, layer by layer. -/
def kernelSpec (c : EReal) (X : Tok) (Wm : Wgt) : Tok :=
  unflat (projP (unheads (attnAll c (heads (projT (flat X) Wm)))) Wm)

/-- Head (b, h) of the shared projection: position n, feature k is ∑_d X (b,n,d) · W (64h+k, d). -/
def headTable (X : Tok) (Wm : Wgt) (b : Fin 2) (h : Fin 16) (n : Fin 2048) (k : Fin 64) : EReal :=
  ∑ d : Fin 1024, X (ix3 b n d) * Wm (ix2 (mkCol h k) d)

/-- The whole operator in the second spelling, entry by entry. -/
def refSpec (c : EReal) (X : Tok) (Wm : Wgt) : Tok :=
  fun i => ∑ e : Fin 1024, attnR c (headTable X Wm (i 0) (colH e)) (i 1) (colK e) * Wm (ix2 e (i 2))

end Cert.Attn

end
-- ==== Proof.LibDotT.lean ====
/-
  A product with output-major weights,  a · wᵀ,  read at (row, column), at the ideal values and for
  any sizes.

  The weights `w` are stored M × K (one row per OUTPUT feature); the operand `a` is N × K. Two spellings
  of the same product:
  * the kernel's: one matrix product contracting axis 1 of BOTH operands (the right operand on its
    last axis) into a zero accumulator;
  * the host's: the weights transposed to K × M first, then a plain product contracting the left
    operand's axis 1 with the transposed weights' axis 0.
  At (i, j) each is the one sum  ∑ₖ a (i, k) · w (j, k).  The statements hold for every row count, so
  the same lemma reads a block of rows and the whole array.
-/
import proofs.«412328_j29764123361749_3_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.Rows

open Idealize.ShloMosaic Idealize.ShloMosaic.ValueIdx

variable {N K M : ℕ}

/-! ## The operand indices of a product whose right operand is contracted on its last axis -/

/-- The left operand's row is the result's row. -/
theorem trhs_lhs_0 (i : (⟨2, ![N, M]⟩ : Shape).Idx) (q : (DotDims.transposedRhs N K M).contr.Idx) :
    ((DotDims.transposedRhs N K M).lhsIdx i q 0).val = (i 0).val := by
  unfold DotDims.lhsIdx
  rw [dif_neg (show ¬(0 : Fin (⟨2, ![N, K]⟩ : Shape).rank) ∈ (DotDims.transposedRhs N K M).lhsBatch from List.not_mem_nil),
    dif_pos (show (0 : Fin (⟨2, ![N, K]⟩ : Shape).rank) ∈ (DotDims.transposedRhs N K M).lhsNonContracting from List.mem_singleton.mpr rfl)]
  rfl

/-- The left operand's column is the contraction coordinate. -/
theorem trhs_lhs_1 (i : (⟨2, ![N, M]⟩ : Shape).Idx) (q : (DotDims.transposedRhs N K M).contr.Idx) :
    ((DotDims.transposedRhs N K M).lhsIdx i q 1).val = (q ⟨0, Nat.one_pos⟩).val :=
  (DotDims.transposedRhs N K M).lhsIdx_val_of_single rfl i q

/-- The right operand's row is the result's column. -/
theorem trhs_rhs_0 (i : (⟨2, ![N, M]⟩ : Shape).Idx) (q : (DotDims.transposedRhs N K M).contr.Idx) :
    ((DotDims.transposedRhs N K M).rhsIdx i q 0).val = (i 1).val := by
  unfold DotDims.rhsIdx
  rw [dif_neg (show ¬(0 : Fin (⟨2, ![M, K]⟩ : Shape).rank) ∈ (DotDims.transposedRhs N K M).rhsBatch from List.not_mem_nil),
    dif_pos (show (0 : Fin (⟨2, ![M, K]⟩ : Shape).rank) ∈ (DotDims.transposedRhs N K M).rhsNonContracting from List.mem_singleton.mpr rfl)]
  rfl

/-- The right operand's column is the contraction coordinate. -/
theorem trhs_rhs_1 (i : (⟨2, ![N, M]⟩ : Shape).Idx) (q : (DotDims.transposedRhs N K M).contr.Idx) :
    ((DotDims.transposedRhs N K M).rhsIdx i q 1).val = (q ⟨0, Nat.one_pos⟩).val :=
  (DotDims.transposedRhs N K M).rhsIdx_val_of_single rfl i q

/-- The sum over the one contracted axis, re-indexed by its coordinate: the right operand is read at (column, k). -/
theorem trhs_sum {φ₁ φ₂ : FTy} (l : FVec Ideal ⟨2, ![N, K]⟩ φ₁) (r : FVec Ideal ⟨2, ![M, K]⟩ φ₂) (i : Fin N) (j : Fin M) :
    (∑ q : (DotDims.transposedRhs N K M).contr.Idx,
        l ((DotDims.transposedRhs N K M).lhsIdx (ix2 i j) q) * r ((DotDims.transposedRhs N K M).rhsIdx (ix2 i j) q))
      = ∑ k : Fin K, l (ix2 i k) * r (ix2 j k) := by
  rw [← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 (DotDims.transposedRhs N K M) K rfl rfl).symm k) = ix2 i k :=
    funext fun a => Fin.ext (by
      match a with
      | ⟨0, _⟩ => exact trhs_lhs_0 _ _
      | ⟨1, _⟩ => exact (trhs_lhs_1 _ _).trans hk)
  have er : (DotDims.transposedRhs N K M).rhsIdx (ix2 i j) ((contrEquiv1 (DotDims.transposedRhs N K M) K rfl rfl).symm k) = ix2 j k :=
    funext fun a => Fin.ext (by
      match a with
      | ⟨0, _⟩ => exact trhs_rhs_0 _ _
      | ⟨1, _⟩ => exact (trhs_rhs_1 _ _).trans hk)
  rw [el, er]

/-! ## The two spellings at (row, column) -/

/-- The kernel's spelling: a product contracting axis 1 of both operands into a zero accumulator, at (i, j), is
    ∑ₖ l (i,k) · r (j,k) — whatever the operands' float formats. -/
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul (DotDims.transposedRhs N K M) none l r (constant ⟨2, ![N, M]⟩ .f32 0x00000000#32) (ix2 i j) = _
  rw [Ideal.matmul_constant_zero_apply]
  exact trhs_sum l r i j

/-- The host's spelling: the weights transposed, then the plain product, at (i, j): the same sum. -/
theorem dotGeneral_transpose_apply (l : FVec Ideal ⟨2, ![N, K]⟩ .f32) (w : FVec Ideal ⟨2, ![M, K]⟩ .f32)
    (tr : (⟨2, ![M, K]⟩ : Shape).Transposes [1, 0] ⟨2, ![K, M]⟩) (i : Fin N) (j : Fin M) :
    Host.dotGeneral (DotDims.plain N K M) none l (transpose ⟨2, ![K, M]⟩ [1, 0] w tr) (ix2 i j)
      = ∑ k : Fin K, l (ix2 i k) * w (ix2 j k) := by
  rw [dotGeneral_plain_apply]
  exact Finset.sum_congr rfl fun k _ => by rw [transpose_ix2_apply]

end Idealize.ShloMosaic.Rows

end
-- ==== Proof.Region0.lean ====
/-
  What the first projection leaves in its output array: the 4096 × 1024 matrix of all tokens times the transposed
  weights, four blocks of 1024 rows, each block the product of that block of rows with the whole weight matrix.
-/
import proofs.«412328_j29764123361749_3_alg».proof.Proof.Gen.KernelIdeal.Frame
import proofs.«412328_j29764123361749_3_alg».proof.Proof.Spec
import proofs.«412328_j29764123361749_3_alg».proof.Proof.LibDotT
set_option maxRecDepth 16384

noncomputable section

namespace Cert.KernelIdeal.Region0

open Idealize.ShloMosaic Idealize.ShloMosaic.ValueIdx Idealize.ShloMosaic.TcCoe Idealize.SL.Sem
open Idealize.ShloMosaic.Pipeline (Dat)
open Cert.KernelIdeal Cert.KernelIdeal.Gen
open Idealize.ShloMosaic.Rows

/-- The body's one store starts at the block's origin. -/
theorem origin : (![0, 0] : Fin 2 → Nat) = fun _ => 0 := funext fun a => by fin_cases a <;> rfl

/-- One block of the product: entry (p, q) is the inner product of row p of the left block with row q of the right one;
    the changes of float format are the identity at the ideal values. -/
theorem pay_apply (x0 x1 : Vec Ideal S1024x1024 .f32) (p q : Fin 1024) :
    k0_pay1 (F := Ideal) x0 x1 (ix2 p q) = ∑ d : Fin 1024, x0 (ix2 p d) * x1 (ix2 q d) := by
  unfold k0_pay1
  refine (matmul_trhs_apply (truncf .bf16 (shapeCast S1024x1024 x0 shapeCasts_S1024x1024_S1024x1024) bitsLt_bf16_f32)
    (truncf .bf16 x1 bitsLt_bf16_f32) p q).trans ?_
  rw [shapeCast_self]
  rfl

/-- If row p of the left block is row r of X and the right block is W, entry (p, q) of the block product is entry (r, q) of
    X · Wᵀ. -/
theorem entry_of_blocks (X : Cert.Attn.Flat) (W : Cert.Attn.Wgt) (x0 x1 : Vec Ideal S1024x1024 .f32) (r : Fin 4096)
    (p q : Fin 1024) (h0 : ∀ d : Fin 1024, x0 (ix2 p d) = X (ix2 r d)) (h1 : ∀ d : Fin 1024, x1 (ix2 q d) = W (ix2 q d)) :
    k0_pay1 (F := Ideal) x0 x1 (ix2 p q) = Cert.Attn.projT X W (ix2 r q) := by
  rw [pay_apply]
  show _ = ∑ d : Fin 1024, X (ix2 r d) * W (ix2 q d)
  exact Finset.sum_congr rfl fun d _ => by rw [h0, h1]

/-- Where the blocks sit: at point t the tokens' block and the output's block are block t of their 4096 rows, and the
    weights' block is the whole weight matrix. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of X · Wᵀ: rows 1024 t … 1024 t + 1023. -/
theorem flushed_eq (c : Dev nD) (t : Fin cfg0.N) :
    (dat0 (F := Ideal) V c).flushed 2 t = ((cfg0.win 2).blk t).view.read (Elt Ideal)
      (Cert.Attn.projT (V c (Pipeline.arrRef spec0 0)) (V c (Pipeline.arrRef spec0 1))) := by
  show (cfg0.win 2).cut (grid0.coords t) ((dat0 V c).after 2 t) = _
  rw [after0_2]
  unfold out0_2
  rw [View.canon_unit_zero origin]
  simp only [View.ld_unit_zero (S := S1024x1024) origin]
  obtain ⟨e0, e1, e2, e3, e4, e5⟩ := block_places t
  have hN : grid0.N = 4 := N_0
  have ht : t.val < 4 := hN ▸ t.isLt
  funext j
  obtain ⟨p, q, rfl⟩ : ∃ (p q : Fin 1024), j = ix2 p q := ⟨j 0, j 1, eq_ix2 j⟩
  have hr : t.val * 1024 + p.val < 4096 := by have := p.isLt; omega
  show k0_pay1 (F := Ideal) (iblk0 V c 0 t) (iblk0 V c 1 t) (ix2 p q)
    = Cert.Attn.projT (V c (Pipeline.arrRef spec0 0)) (V c (Pipeline.arrRef spec0 1)) (((cfg0.win 2).blk t).view.emb (ix2 p q))
  have hemb : ((cfg0.win 2).blk t).view.emb (ix2 p q) = ix2 (⟨t.val * 1024 + p.val, hr⟩ : Fin 4096) q := by
    funext a; apply Fin.ext
    match a with
    | ⟨0, _⟩ => show win0_2.index t (0 : Fin 2) * 1024 + 1 * p.val = t.val * 1024 + p.val; omega
    | ⟨1, _⟩ => show win0_2.index t (1 : Fin 2) * 1024 + 1 * q.val = q.val; omega
  rw [hemb]
  refine entry_of_blocks (V c (Pipeline.arrRef spec0 0)) (V c (Pipeline.arrRef spec0 1)) (iblk0 V c 0 t) (iblk0 V c 1 t)
    ⟨t.val * 1024 + p.val, hr⟩ p q (fun d => ?_) (fun d => ?_)
  · show V c (Pipeline.arrRef spec0 0) (((cfg0.win 0).blk t).view.emb (ix2 p d))
      = V c (Pipeline.arrRef spec0 0) (ix2 (⟨t.val * 1024 + p.val, hr⟩ : Fin 4096) d)
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 1024 + 1 * d.val = d.val; omega
  · show V c (Pipeline.arrRef spec0 1) (((cfg0.win 1).blk t).view.emb (ix2 q d))
      = V c (Pipeline.arrRef spec0 1) (ix2 q d)
    refine congrArg _ (funext fun a => Fin.ext ?_)
    match a with
    | ⟨0, _⟩ => show win0_1.index t (0 : Fin 2) * 1024 + 1 * q.val = q.val; omega
    | ⟨1, _⟩ => show win0_1.index t (1 : Fin 2) * 1024 + 1 * d.val = d.val; omega

/-- An entry of the output array is in point t's block iff each coordinate is in the block's range on its axis. -/
theorem mem_blk (t : Fin cfg0.N) (i : S4096x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Every entry of the output array is written back by some point: row r by point r / 1024. -/
theorem cover (i : S4096x1024.Idx) :
    ∃ t : Fin cfg0.N, (cfg0.win 2).flush t = true ∧ i ∈ ((cfg0.win 2).blk t).view.set := by
  have hN : grid0.N = 4 := N_0
  have hi0 : (i 0).val < 4096 := (i 0).isLt
  have hi1 : (i 1).val < 1024 := (i 1).isLt
  have hlt : (i 0).val / 1024 < grid0.N := by rw [hN]; omega
  refine ⟨⟨(i 0).val / 1024, hlt⟩, flush0_2 _, ?_⟩
  obtain ⟨e0, e1, e2, e3, e4, e5⟩ := block_places ⟨(i 0).val / 1024, hlt⟩
  rw [mem_blk]
  intro a
  match a with
  | ⟨0, _⟩ =>
    show win0_2.index ⟨(i 0).val / 1024, hlt⟩ (0 : Fin 2) * 1024 ≤ (i 0).val
      ∧ (i 0).val < win0_2.index ⟨(i 0).val / 1024, hlt⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, hlt⟩ (1 : Fin 2) * 1024 ≤ (i 1).val
      ∧ (i 1).val < win0_2.index ⟨(i 0).val / 1024, hlt⟩ (1 : Fin 2) * 1024 + 1024
    rw [e5]; omega

/-- After the region the output array is X · Wᵀ of the two input arrays as the region found them. -/
theorem arr (c : Dev nD) :
    (dat0 (F := Ideal) V c).arrAt 2 cfg0.N
      = Cert.Attn.projT (V c (Pipeline.arrRef spec0 0)) (V c (Pipeline.arrRef spec0 1)) :=
  (dat0 (F := Ideal) V c).arrAt_eq_of_cover 2
    (Cert.Attn.projT (V c (Pipeline.arrRef spec0 0)) (V c (Pipeline.arrRef spec0 1)))
    (fun t _ => flushed_eq V c t) cover

end Cert.KernelIdeal.Region0

end
-- ==== Proof.LibCosineSoftmax.lean ====
/-
  Cosine similarity of every row of an array against a table of class prototypes, then a softmax
  over the classes: row by row, at the ideal values, for any sizes.

  * `unitRow b v`: the vector `v` divided by its Euclidean length, the length clamped below by the
    value of the word `b`:  v d / max (√(∑ₑ v e · v e)) b.
  * `dots w u`: the inner products of `u` with every row of the table `w`:  k ↦ ∑_d u d · w (k,d).
  * `softmaxRow s`: k ↦ exp (s k − max s) / ∑ⱼ exp (s j − max s), the maximum folded from −∞.

  Each is read off the kernel's spelling (lane reductions, a unit axis added and broadcast, a product
  contracting the last axis of both operands into a zero accumulator) and off the host's
  (`reduce`, two `broadcast_in_dim`s, `dot_general`), as arrays of rows. The statements hold for
  every row count, so one lemma reads a block of rows and the whole array.
-/
import proofs.«412328_j29764123361749_3_alg».proof.Proof.LibRows
import proofs.«412328_j29764123361749_3_alg».proof.Proof.LibDotT
import Mathlib.Data.Finset.Fold

noncomputable section

namespace Idealize.ShloMosaic.Rows

open Idealize.ShloMosaic Idealize.ShloMosaic.ValueIdx

variable {N D K M : ℕ}

/-! ## More layers read row by row -/

theorem sqrt_rows (x : FVec Ideal ⟨2, ![N, K]⟩ .f32) : sqrt x = ofRows fun i k => Ideal.sqrt (rowOf x i k) :=
  ext_ix2 fun _ _ => rfl

theorem hsqrt_rows (x : FVec Ideal ⟨2, ![N, K]⟩ .f32) : Host.sqrt x = ofRows fun i k => Ideal.sqrt (rowOf x i k) :=
  ext_ix2 fun _ _ => rfl

/-- A column (one entry per row) laid along every row, the kernel's way. -/
theorem kspread_eq (a : FVec Ideal ⟨2, ![N, 1]⟩ .f32) (bc : (⟨2, ![N, 1]⟩ : Shape).Broadcasts ⟨2, ![N, M]⟩) :
    broadcastTo ⟨2, ![N, M]⟩ a bc = ofRows fun i _ => a (ix2 i (0 : Fin 1)) := by
  refine ext_ix2 fun i j => ?_
  exact broadcastTo_apply a bc (ix2 i j) (ix2 i (0 : Fin 1)) (by
    intro b
    match b with
    | ⟨0, _⟩ =>
      show i.val = if N = 1 then 0 else i.val
      split
      · have := i.isLt; omega
      · rfl
    | ⟨1, _⟩ => rfl)

/-- A column laid along every row, the host's way. -/
theorem hspread_eq (a : FVec Ideal ⟨2, ![N, 1]⟩ .f32) (b2 : (⟨2, ![N, 1]⟩ : Shape).BroadcastsInDim ⟨2, ![N, M]⟩ ![0, 1]) :
    broadcastInDim ⟨2, ![N, M]⟩ ![0, 1] b2 a = ofRows fun i _ => a (ix2 i (0 : Fin 1)) := by
  refine ext_ix2 fun i j => ?_
  exact broadcastInDim_apply ![0, 1] b2 a (ix2 i j) (ix2 i (0 : Fin 1)) (by
    intro b
    match b with
    | ⟨0, _⟩ =>
      show i.val = if N = 1 then 0 else i.val
      split
      · have := i.isLt; omega
      · rfl
    | ⟨1, _⟩ => rfl)

/-- One value per row given a unit feature axis, the host's way. -/
theorem hcol1_eq (c : FVec Ideal ⟨1, ![N]⟩ .f32) (b1 : (⟨1, ![N]⟩ : Shape).BroadcastsInDim ⟨2, ![N, 1]⟩ ![0]) :
    broadcastInDim ⟨2, ![N, 1]⟩ ![0] b1 c = ofRows fun i _ => valOf c i := by
  refine ext_ix2 fun i j => ?_
  exact broadcastInDim_apply ![0] b1 c (ix2 i j) (ix1 i) (by
    intro b
    match b with
    | ⟨0, _⟩ =>
      show i.val = if N = 1 then 0 else i.val
      split
      · have := i.isLt; omega
      · rfl)

/-- The host's product contracting the last axis of both operands, at (i, j): ∑ₖ l (i,k) · r (j,k). -/
theorem dotGeneral_trhs_apply (l : FVec Ideal ⟨2, ![N, K]⟩ .f32) (r : FVec Ideal ⟨2, ![M, K]⟩ .f32) (i : Fin N) (j : Fin M) :
    Host.dotGeneral (DotDims.transposedRhs N K M) none l r (ix2 i j) = ∑ k : Fin K, l (ix2 i k) * r (ix2 j k) := by
  show FloatOps.dotGeneral (DotDims.transposedRhs N K M) none .single l r (ix2 i j) = _
  rw [Ideal.dotGeneral_apply]
  exact trhs_sum l r i j

/-! ## A row divided by its clamped length -/

/-- `v` over its Euclidean length, the length clamped below by the value of the word `b`. -/
def unitRow (b : BitVec 32) (v : Fin D → EReal) : Fin D → EReal :=
  fun d => Ideal.div (v d) (max (Ideal.sqrt (∑ e : Fin D, v e * v e)) (Ideal.ofBits .f32 b))

/-- The kernel's spelling: the lane sum of squares, a unit axis, the root, the clamp against a splat, the column
    broadcast along the row, the quotient. -/
theorem knormalize_eq (x : FVec Ideal ⟨2, ![N, D]⟩ .f32) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩) :
    divf x (broadcastTo ⟨2, ![N, D]⟩
        (maximumf (sqrt (shapeCast ⟨2, ![N, 1]⟩ (multiReduction .add [1] ⟨1, ![N]⟩ (mulf x x) 0x00000000#32 h hφ hacc) sc))
          (broadcast ⟨2, ![N, 1]⟩ (Scalar.ofBits (F := Ideal) .f32 b))) bc)
      = ofRows fun i => unitRow b (rowOf x i) := by
  rw [mulf_rows, ksum_eq, kcol1_eq, sqrt_rows, maximumf_rows, kspread_eq, divf_rows]
  rfl

/-- The host's spelling: `reduce` from zero, `broadcast_in_dim` to a column, the root, the clamp against a broadcast
    constant, `broadcast_in_dim` along the row, the quotient. -/
theorem hnormalize_eq (x : FVec Ideal ⟨2, ![N, D]⟩ .f32) (b : BitVec 32)
    (h' : (⟨2, ![N, D]⟩ : Shape).ReducesTo [1] ⟨1, ![N]⟩) (h : (⟨2, ![N, D]⟩ : Shape).Reduces [1] ⟨1, ![N]⟩)
    (hu : 0 < (⟨0, ![]⟩ : Shape).numel)
    (b1 : (⟨1, ![N]⟩ : Shape).BroadcastsInDim ⟨2, ![N, 1]⟩ ![0])
    (b0 : (⟨0, ![]⟩ : Shape).BroadcastsInDim ⟨2, ![N, 1]⟩ ![])
    (b2 : (⟨2, ![N, 1]⟩ : Shape).BroadcastsInDim ⟨2, ![N, D]⟩ ![0, 1]) :
    Host.divf x (broadcastInDim ⟨2, ![N, D]⟩ ![0, 1] b2
        (maximumf (Host.sqrt (broadcastInDim ⟨2, ![N, 1]⟩ ![0] b1
            (Host.reduceAdd (mulf x x) (constant (F := Ideal) ⟨0, ![]⟩ .f32 0x00000000#32) h' hu)))
          (broadcastInDim ⟨2, ![N, 1]⟩ ![] b0 (constant (F := Ideal) ⟨0, ![]⟩ .f32 b))))
      = ofRows fun i => unitRow b (rowOf x i) := by
  rw [mulf_rows, hsum_eq _ h' h hu, hcol1_eq, hsqrt_rows, maximumf_rows, hspread_eq, hdivf_rows]
  rfl

/-! ## Inner products with every row of a table -/

/-- The inner products of `u` with the rows of `w`. -/
def dots (w : (⟨2, ![K, D]⟩ : Shape).Idx → EReal) (u : Fin D → EReal) : Fin K → EReal :=
  fun k => ∑ d : Fin D, u d * w (ix2 k d)

/-- The kernel's spelling, whatever the operands' float formats. -/
theorem kdots_eq {φ₁ φ₂ : FTy} (a : FVec Ideal ⟨2, ![N, D]⟩ φ₁) (w : FVec Ideal ⟨2, ![K, D]⟩ φ₂) :
    matmul (DotDims.transposedRhs N D K) none a w (constant ⟨2, ![N, K]⟩ .f32 0x00000000#32)
      = ofRows fun i => dots w fun d => a (ix2 i d) :=
  ext_ix2 fun i j => by rw [matmul_trhs_apply]; rfl

/-- The host's spelling. -/
theorem hdots_eq (a : FVec Ideal ⟨2, ![N, D]⟩ .f32) (w : FVec Ideal ⟨2, ![K, D]⟩ .f32) :
    Host.dotGeneral (DotDims.transposedRhs N D K) none a w = ofRows fun i => dots w (rowOf a i) :=
  ext_ix2 fun i j => by rw [dotGeneral_trhs_apply]; rfl

/-- The kernel's cosine scores: the rows divided by their clamped lengths, changed to a narrower float format (no change
    at the ideal values), multiplied with the table. -/
theorem kcosine_eq {φ₂ : FTy} (x : FVec Ideal ⟨2, ![N, D]⟩ .f32) (w : FVec Ideal ⟨2, ![K, D]⟩ φ₂) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩)
    (hb : FTy.bits .bf16 < FTy.bits .f32) :
    matmul (DotDims.transposedRhs N D K) none
        (truncf .bf16 (divf x (broadcastTo ⟨2, ![N, D]⟩
          (maximumf (sqrt (shapeCast ⟨2, ![N, 1]⟩ (multiReduction .add [1] ⟨1, ![N]⟩ (mulf x x) 0x00000000#32 h hφ hacc) sc))
            (broadcast ⟨2, ![N, 1]⟩ (Scalar.ofBits (F := Ideal) .f32 b))) bc)) hb)
        w (constant ⟨2, ![N, K]⟩ .f32 0x00000000#32)
      = ofRows fun i => dots w (unitRow b (rowOf x i)) := by
  rw [kdots_eq, knormalize_eq]
  rfl

/-- The host's cosine scores: both operands' rows divided by their clamped lengths, then the product. -/
theorem hcosine_eq (x : FVec Ideal ⟨2, ![N, D]⟩ .f32) (mu : FVec Ideal ⟨2, ![K, D]⟩ .f32) (b : BitVec 32) :
    Host.dotGeneral (DotDims.transposedRhs N D K) none (ofRows fun i => unitRow b (rowOf x i)) (ofRows fun k => unitRow b (rowOf mu k))
      = ofRows fun i => dots (ofRows fun k => unitRow b (rowOf mu k)) (unitRow b (rowOf x i)) := by
  rw [hdots_eq]
  rfl

/-! ## Softmax along a row -/

/-- The softmax of a row, shifted by its maximum. -/
def softmaxRow (s : Fin K → EReal) : Fin K → EReal :=
  fun k => Ideal.div (Ideal.exp (s k - rowMax s)) (∑ j : Fin K, Ideal.exp (s j - rowMax s))

/-- The fold of `max` is at least the value it starts from. -/
theorem max_init_rowMax (v : Fin M → EReal) : max (Ideal.ofBits .f32 0xFF800000#32) (rowMax v) = rowMax v :=
  max_eq_right ((Finset.le_fold_max _).mpr (Or.inl le_rfl))

/-- The kernel's numerator: exp of the row shifted by its lane maximum. -/
theorem kexpshift_eq (s : FVec Ideal ⟨2, ![N, K]⟩ .f32)
    (h : (⟨2, ![N, K]⟩ : Shape).Reduces [1] ⟨1, ![N]⟩) (hφ : FKind.Formats .f32)
    (hacc : (0xFF800000#32 : BitVec 32) = FKind.maximumf.neutral .f32 hφ)
    (sc : (⟨1, ![N]⟩ : Shape).ShapeCasts ⟨2, ![N, 1]⟩) (bc : (⟨2, ![N, 1]⟩ : Shape).Broadcasts ⟨2, ![N, K]⟩) :
    exp (subf s (broadcastTo ⟨2, ![N, K]⟩
        (shapeCast ⟨2, ![N, 1]⟩ (multiReduction .maximumf [1] ⟨1, ![N]⟩ s 0xFF800000#32 h hφ hacc) sc) bc))
      = ofRows fun i k => Ideal.exp (rowOf s i k - rowMax (rowOf s i)) := by
  rw [kmax_eq, kcol_eq, subf_rows, exp_rows]
  rfl

/-- The kernel's quotient by the lane sum. -/
theorem kdivsum_eq (v e : FVec Ideal ⟨2, ![N, K]⟩ .f32)
    (h : (⟨2, ![N, K]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩) :
    divf v (broadcastTo ⟨2, ![N, K]⟩
        (shapeCast ⟨2, ![N, 1]⟩ (multiReduction .add [1] ⟨1, ![N]⟩ e 0x00000000#32 h hφ hacc) sc) bc)
      = ofRows fun i k => Ideal.div (rowOf v i k) (∑ j : Fin K, rowOf e i j) := by
  rw [ksum_eq, kcol_eq, divf_rows]
  rfl

/-- The host's numerator: the row maximum from −∞, joined once more with −∞, broadcast in two steps, subtracted,
    exponentiated. -/
theorem hexpshift_eq (s : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b0 : (⟨0, ![]⟩ : Shape).BroadcastsInDim ⟨1, ![N]⟩ ![])
    (b1 : (⟨1, ![N]⟩ : Shape).BroadcastsInDim ⟨2, ![N, 1]⟩ ![0])
    (b2 : (⟨2, ![N, 1]⟩ : Shape).BroadcastsInDim ⟨2, ![N, K]⟩ ![0, 1]) :
    Host.exp (subf s (broadcastInDim ⟨2, ![N, K]⟩ ![0, 1] b2 (broadcastInDim ⟨2, ![N, 1]⟩ ![0] b1
        (maximumf (broadcastInDim ⟨1, ![N]⟩ ![] b0 (constant (F := Ideal) ⟨0, ![]⟩ .f32 0xFF800000#32))
          (Host.reduce FloatOps.maximumf s (constant (F := Ideal) ⟨0, ![]⟩ .f32 0xFF800000#32) h' hu)))))
      = ofRows fun i k => Ideal.exp (rowOf s i k - rowMax (rowOf s i)) := by
  rw [hmax_eq s h' h hu, maximumf_vals, hcol_eq, subf_rows, hexp_rows]
  refine ext_ix2 fun i k => ?_
  show Ideal.exp (s (ix2 i k) - max (Ideal.ofBits .f32 0xFF800000#32) (rowMax (rowOf s i))) = _
  rw [max_init_rowMax]
  rfl

/-- The host's quotient by the row sum. -/
theorem hdivsum_eq (v e : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b1 : (⟨1, ![N]⟩ : Shape).BroadcastsInDim ⟨2, ![N, 1]⟩ ![0])
    (b2 : (⟨2, ![N, 1]⟩ : Shape).BroadcastsInDim ⟨2, ![N, K]⟩ ![0, 1]) :
    Host.divf v (broadcastInDim ⟨2, ![N, K]⟩ ![0, 1] b2 (broadcastInDim ⟨2, ![N, 1]⟩ ![0] b1
        (Host.reduceAdd e (constant (F := Ideal) ⟨0, ![]⟩ .f32 0x00000000#32) h' hu)))
      = ofRows fun i k => Ideal.div (rowOf v i k) (∑ j : Fin K, rowOf e i j) := by
  rw [hsum_eq e h' h hu, hcol_eq, hdivf_rows]
  rfl

/-- Numerator over its row sum is the softmax of the row. -/
theorem softmax_of_expshift (s : FVec Ideal ⟨2, ![N, K]⟩ .f32) :
    (ofRows fun i k => Ideal.div (rowOf (ofRows fun i k => Ideal.exp (rowOf s i k - rowMax (rowOf s i))) i k)
        (∑ j : Fin K, rowOf (ofRows fun i k => Ideal.exp (rowOf s i k - rowMax (rowOf s i))) i j))
      = (ofRows fun i => softmaxRow (rowOf s i) : FVec Ideal ⟨2, ![N, K]⟩ .f32) := rfl

/-! ## The whole operator -/

/-- Row `n` of the result: the softmax over the classes of the cosine similarities of row `n` of `x` with the rows of
    `mu`, every length clamped below by the value of the word `b`. -/
def cosineSoftmax (b : BitVec 32) (x : FVec Ideal ⟨2, ![N, D]⟩ .f32) (mu : FVec Ideal ⟨2, ![K, D]⟩ .f32) :
    FVec Ideal ⟨2, ![N, K]⟩ .f32 :=
  ofRows fun n => softmaxRow (dots (ofRows fun k => unitRow b (rowOf mu k)) (unitRow b (rowOf x n)))

end Idealize.ShloMosaic.Rows

end
-- ==== Proof.Region1Body.lean ====
/-
  The arithmetic of the attention body on one block, entry by entry: a slice of 512 query rows, each scaled by the
  16-bit word 0x3E00's value, their inner products with all 2048 rows of the table, the exponentials of the scores shifted
  by the row maximum, the weighted sum of the table's rows, and one division by the sum of the weights.
-/
import proofs.«412328_j29764123361749_3_alg».proof.Proof.Gen.KernelIdeal.Skeleton
import proofs.«412328_j29764123361749_3_alg».proof.Proof.Spec
import proofs.«412328_j29764123361749_3_alg».proof.Proof.LibCosineSoftmax

set_option maxRecDepth 16384

noncomputable section

namespace Cert.KernelIdeal.Region1

open Idealize.ShloMosaic Idealize.ShloMosaic.ValueIdx Idealize.ShloMosaic.Rows
open Cert.KernelIdeal Cert.KernelIdeal.Gen

/-- The product contracting axis 1 of both operands is the one with the right operand read on its last axis. -/
theorem dotT_eq : dot_S512x64_S2048x64_S512x2048_1_1_0_0_n_n = DotDims.transposedRhs 512 64 2048 := rfl

/-- The product contracting the left operand's axis 1 with the right operand's axis 0 is the plain one. -/
theorem dotP_eq : dot_S512x2048_S2048x64_S512x64_1_0_0_1_n_n = DotDims.plain 512 2048 64 := rfl

/-- A plain matrix product into a zero accumulator, at (i, j), whatever the operands' float formats:
    ∑ₖ l (i,k) · r (k,j). -/
theorem matmul_plain_apply' {N K M : ℕ} {φ₁ φ₂ : FTy} (l : FVec Ideal ⟨2, ![N, K]⟩ φ₁) (r : FVec Ideal ⟨2, ![K, M]⟩ φ₂)
    (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The exponentials of a row shifted by its lane maximum, the maximum folded from the word 0xFF800000. -/
theorem kexpshift_eq' {N K : ℕ} (s : FVec Ideal ⟨2, ![N, K]⟩ .f32)
    (h : (⟨2, ![N, K]⟩ : Shape).Reduces [1] ⟨1, ![N]⟩) (hφ : FKind.Formats .f32)
    (hacc : (0xFF800000#32 : BitVec 32) = 0xFF800000#32)
    (sc : (⟨1, ![N]⟩ : Shape).ShapeCasts ⟨2, ![N, 1]⟩) (bc : (⟨2, ![N, 1]⟩ : Shape).Broadcasts ⟨2, ![N, K]⟩) :
    exp (subf s (broadcastTo ⟨2, ![N, K]⟩
        (shapeCast ⟨2, ![N, 1]⟩ (multiReduction .maximumf [1] ⟨1, ![N]⟩ s 0xFF800000#32 h hφ hacc) sc) bc))
      = ofRows fun i k => Ideal.exp (rowOf s i k - rowMax (rowOf s i)) :=
  kexpshift_eq s h hφ hacc sc bc

/-- The quotient of an N × K array by the lane sums of an N × M array, the sums laid along the rows. -/
theorem kdivsum2_eq {N K M : ℕ} (v : FVec Ideal ⟨2, ![N, K]⟩ .f32) (e : FVec Ideal ⟨2, ![N, M]⟩ .f32)
    (h : (⟨2, ![N, M]⟩ : Shape).Reduces [1] ⟨1, ![N]⟩) (hφ : FKind.Formats .f32)
    (hacc : (0x00000000#32 : BitVec 32) = 0x00000000#32)
    (sc : (⟨1, ![N]⟩ : Shape).ShapeCasts ⟨2, ![N, 1]⟩) (bc : (⟨2, ![N, 1]⟩ : Shape).Broadcasts ⟨2, ![N, K]⟩) :
    divf v (broadcastTo ⟨2, ![N, K]⟩
        (shapeCast ⟨2, ![N, 1]⟩ (multiReduction .add [1] ⟨1, ![N]⟩ e 0x00000000#32 h hφ hacc) sc) bc)
      = ofRows fun i k => Ideal.div (rowOf v i k) (∑ j : Fin M, rowOf e i j) := by
  have e1 := ksum_eq e h hφ hacc
  rw [e1, kcol_eq, divf_rows]
  rfl

/-- The scores: row i is the scaled query row i against every row of the table. -/
theorem scores_eq (v3 : FVec Ideal S1x512x64 .bf16) (v7 : FVec Ideal S1x2048x64 .bf16) :
    matmul (DotDims.transposedRhs 512 64 2048) none
        (mulf (shapeCast S512x64 v3 shapeCasts_S1x512x64_S512x64) (broadcast S512x64 (Scalar.ofBits (F := Ideal) .bf16 0x3E00#16)))
        (shapeCast S2048x64 v7 shapeCasts_S1x2048x64_S2048x64) (constant S512x2048 .f32 0x00000000#32)
      = ofRows fun i => Cert.Attn.scoreQ (Ideal.ofBits .bf16 0x3E00#16) (fun k' => v3 (ix3 (0 : Fin 1) i k'))
          (fun m k' => v7 (ix3 (0 : Fin 1) m k')) := by
  refine ext_ix2 fun i m => ?_
  rw [matmul_trhs_apply, ofRows_apply]
  unfold Cert.Attn.scoreQ
  refine Finset.sum_congr rfl fun d _ => ?_
  rw [mulf_apply, broadcast_apply, shapeCast_1ab_ab_apply, shapeCast_1ab_ab_apply]
  rfl

/-- Entry (0, i, k) of the stored value: query row i of the slice attended over the whole table. -/
theorem pay_apply (v3 : Vec Ideal S1x512x64 .bf16) (v7 : Vec Ideal S1x2048x64 .bf16) (i : Fin 512) (k : Fin 64) :
    k1_pay1 (F := Ideal) v3 v7 (ix3 (0 : Fin 1) i k)
      = Cert.Attn.attnQ (Ideal.ofBits .bf16 0x3E00#16) (fun k' => v3 (ix3 (0 : Fin 1) i k'))
          (fun m k' => v7 (ix3 (0 : Fin 1) m k')) k := by
  unfold k1_pay1
  rw [dotT_eq, dotP_eq, scores_eq v3 v7]
  refine (shapeCast_ab_1ab_apply _ _ (0 : Fin 1) i k).trans ?_
  rw [truncf_apply, kdivsum2_eq, ofRows_apply, kexpshift_eq']
  unfold Cert.Attn.attnQ
  congr 1
  · show matmul (DotDims.plain 512 2048 64) none _ _ _ (ix2 i k) = _
    rw [matmul_plain_apply']
    refine Finset.sum_congr rfl fun m _ => ?_
    rw [truncf_apply, shapeCast_1ab_ab_apply]
    rfl

end Cert.KernelIdeal.Region1

end
-- ==== Proof.Region1.lean ====
/-
  What the attention region leaves in its output array: for each of the 32 (batch, head) groups and each block of 512
  query positions, the softmax-weighted means of the group's 2048 rows, the query rows being a slice of the same table.
-/
import proofs.«412328_j29764123361749_3_alg».proof.Proof.Gen.KernelIdeal.Frame
import proofs.«412328_j29764123361749_3_alg».proof.Proof.Spec
import proofs.«412328_j29764123361749_3_alg».proof.Proof.LibCosineSoftmax
import proofs.«412328_j29764123361749_3_alg».proof.Proof.Region1Body
set_option maxRecDepth 16384

noncomputable section

namespace Cert.KernelIdeal.Region1

open Idealize.ShloMosaic Idealize.ShloMosaic.ValueIdx Idealize.ShloMosaic.TcCoe Idealize.SL.Sem
open Idealize.ShloMosaic.Pipeline (Dat)
open Cert.KernelIdeal Cert.KernelIdeal.Gen
open Idealize.ShloMosaic.Rows
open Idealize.ShloMosaic.Tactic
variable (V : (c : Dev nD) → (b : Ref sig .tc) → Buf (Elt Ideal) ((c : Thread nD τ).loc b))

/-! ## The blocks of the region: what each point stores, reads and writes back -/

namespace Blocks

/-- The three zero offsets, as the constant function. -/
theorem zeros3 : (![0, 0, 0] : Fin 3 → Nat) = fun _ => 0 := funext fun a => by fin_cases a <;> rfl

/-- What the body leaves in its output buffer, for any input contents: the block arithmetic of the 512-row slice of the
    input at the point's offsets and of the whole input. -/
theorem piece {F : FTy → Type} [FloatOps F] (c : Dev nD) (i : grid1.Coords) (arg2 : Memref sig .tc .vmem S1x2048x64 .bf16) (harg2 : arg2.IsWhole)
    (arg3 : Memref sig .tc .vmem S1x512x64 .bf16) (harg3 : arg3.IsWhole) (x0 : Vec F S1x2048x64 .bf16) :
    out1_A_1 (F := F) c i arg2 harg2 arg3 harg3 x0
      = k1_pay1 (View.ld x0 (Rect.unit (s := S1x2048x64) (k1_off1 i) S1x512x64.size (k1_off1_inb i))) x0 := by
  unfold out1_A_1
  rw [View.read_writes_eq_canon _ _ _ (cover1_A_1 c i arg2 harg2 arg3 harg3 x0)]
  unfold kernelRun1_A
  dsimp only
  sl_unfold_words
  rw [View.canon_unit_zero zeros3]
  simp only [View.readAt_eq_ld, harg2.read_unread, View.ld_unit_zero (S := S1x2048x64) zeros3]

/-- Row r of the 512-row slice at row offset 512·q is row 512·q + r of the table. -/
theorem ld_slice (x0 : Vec Ideal S1x2048x64 .bf16) (off : Fin 3 → Nat)
    (inb : ∀ a, off a + S1x512x64.size a ≤ S1x2048x64.size a) (q : Nat)
    (h0 : off 0 = 0) (h1 : off 1 = 512 * q) (h2 : off 2 = 0) (r : Fin 512) (k : Fin 64) (n : Fin 2048)
    (hn : n.val = 512 * q + r.val) :
    View.ld x0 (Rect.unit (s := S1x2048x64) off S1x512x64.size inb) (ix3 (0 : Fin 1) r k) = x0 (ix3 (0 : Fin 1) n k) := by
  show x0 _ = x0 _
  congr 1
  funext a
  apply Fin.ext
  match a with
  | ⟨0, _⟩ => show off 0 + 1 * 0 = 0; omega
  | ⟨1, _⟩ => show off 1 + 1 * r.val = n.val; omega
  | ⟨2, _⟩ => show off 2 + 1 * k.val = k.val; omega

/-- One entry of the stored block: when the input buffer holds group g of the heads array and the slice starts at row
    512·q, entry (0, r, k) is entry (g, 512·q + r, k) of every head attended with itself. -/
theorem point_eq (A : Cert.Attn.Heads) (x0 : Vec Ideal S1x2048x64 .bf16) (g : Fin 32) (q : Nat)
    (hx : ∀ (m : Fin 2048) (k : Fin 64), x0 (ix3 (0 : Fin 1) m k) = A (ix3 g m k))
    (off : Fin 3 → Nat) (inb : ∀ a, off a + S1x512x64.size a ≤ S1x2048x64.size a)
    (h0 : off 0 = 0) (h1 : off 1 = 512 * q) (h2 : off 2 = 0)
    (j : S1x512x64.Idx) (i : S32x2048x64.Idx) (hi0 : (i 0).val = g.val) (hi1 : (i 1).val = 512 * q + (j 1).val)
    (hi2 : (i 2).val = (j 2).val) :
    k1_pay1 (F := Ideal) (View.ld x0 (Rect.unit (s := S1x2048x64) off S1x512x64.size inb)) x0 j
      = Cert.Attn.attnAll (Ideal.ofBits .bf16 0x3E00#16) A i := by
  obtain ⟨z, r, k, rfl⟩ : ∃ (z : Fin 1) (r : Fin 512) (k : Fin 64), j = ix3 z r k := ⟨j 0, j 1, j 2, eq_ix3 j⟩
  obtain rfl : z = 0 := Subsingleton.elim _ _
  obtain ⟨g', n, k', rfl⟩ : ∃ (g' : Fin 32) (n : Fin 2048) (k' : Fin 64), i = ix3 g' n k' := ⟨i 0, i 1, i 2, eq_ix3 i⟩
  obtain rfl : g' = g := Fin.ext hi0
  obtain rfl : k' = k := Fin.ext hi2
  rw [pay_apply]
  have e1 : (fun k'' => View.ld x0 (Rect.unit (s := S1x2048x64) off S1x512x64.size inb) (ix3 (0 : Fin 1) r k''))
      = (fun k'' => A (ix3 g' n k'')) :=
    funext fun k'' => (ld_slice x0 off inb q h0 h1 h2 r k'' n hi1).trans (hx n k'')
  have e2 : (fun (m : Fin 2048) (k'' : Fin 64) => x0 (ix3 (0 : Fin 1) m k'')) = (fun m k'' => A (ix3 g' m k'')) :=
    funext fun m => funext fun k'' => hx m k''
  rw [e1, e2]
  rfl

/-- The slice offsets and the two windows' block indices at every grid point, point t being (group t / 4, quarter t % 4). -/
theorem grid_facts : ∀ t : Fin cfg1.N,
    k1_off1 (grid1.coords t) 0 = 0 ∧ k1_off1 (grid1.coords t) 1 = 512 * (t.val % 4) ∧ k1_off1 (grid1.coords t) 2 = 0
    ∧ win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0 :=
  (by decide +kernel : ∀ t : Fin grid1.N, _)

/-- The input window's block at point t is group t / 4 of the input array. -/
theorem iblk_apply (c : Dev nD) (t : Fin cfg1.N) (g : Fin 32) (hg : g.val = t.val / 4) (m : Fin 2048) (k : Fin 64) :
    (iblk1 (F := Ideal) V c 0 t : Vec Ideal S1x2048x64 .bf16) (ix3 (0 : Fin 1) m k)
      = (V c (Pipeline.arrRef spec1 0) : Cert.Attn.Heads) (ix3 g m k) := by
  obtain ⟨-, -, -, a0, a1, a2, -⟩ := grid_facts t
  unfold iblk1
  rw [View.read_apply]
  show V c (Pipeline.arrRef spec1 0) _ = V c (Pipeline.arrRef spec1 0) _
  congr 1
  funext a
  apply Fin.ext
  match a with
  | ⟨0, _⟩ => show win1_0.index t 0 * 1 + 1 * 0 = g.val; rw [a0, hg]; omega
  | ⟨1, _⟩ => show win1_0.index t 1 * 2048 + 1 * m.val = m.val; rw [a1]; omega
  | ⟨2, _⟩ => show win1_0.index t 2 * 64 + 1 * k.val = k.val; rw [a2]; omega

/-- What point t writes back is its block of every head attended with itself. -/
theorem flushed_eq (c : Dev nD) (t : Fin cfg1.N) :
    (dat1 (F := Ideal) V c).flushed 1 t
      = ((cfg1.win 1).blk t).view.read (Elt Ideal)
          (Cert.Attn.attnAll (Ideal.ofBits .bf16 0x3E00#16) (V c (Pipeline.arrRef spec1 0))) := by
  show (cfg1.win 1).cut (grid1.coords t) ((dat1 (F := Ideal) V c).after 1 t) = _
  rw [after1_1]
  unfold outsAt1
  rw [piece (F := Ideal) c (grid1.coords t) (ms1_0 t) (hs1_0 t) (ms1_1 t) (hs1_1 t) (iblk1 V c 0 t)]
  obtain ⟨o0, o1, o2, -, -, -, b0, b1, b2⟩ := grid_facts t
  have ht : t.val < 128 := lt_of_lt_of_eq t.isLt N_1
  funext j
  rw [View.read_apply]
  refine point_eq (V c (Pipeline.arrRef spec1 0)) (iblk1 V c 0 t) ⟨t.val / 4, by omega⟩ (t.val % 4)
    (fun m k => iblk_apply V c t ⟨t.val / 4, by omega⟩ rfl m k) (k1_off1 (grid1.coords t)) (k1_off1_inb (grid1.coords t))
    o0 o1 o2 j (((cfg1.win 1).blk t).view.emb j) ?_ ?_ ?_
  · show win1_1.index t 0 * 1 + 1 * (j 0).val = t.val / 4
    have hj : (j 0).val < 1 := (j 0).isLt
    rw [b0]; omega
  · show win1_1.index t 1 * 512 + 1 * (j 1).val = 512 * (t.val % 4) + (j 1).val
    rw [b1]; omega
  · show win1_1.index t 2 * 64 + 1 * (j 2).val = (j 2).val
    rw [b2]; omega

/-- An index of the output array is in point t's block iff each coordinate is in the block's range on its axis. -/
theorem mem_blk (t : Fin cfg1.N) (i : S32x2048x64.Idx) :
    i ∈ ((cfg1.win 1).blk t).view.set
      ↔ ∀ a : Fin 3, win1_1.index t a * S1x512x64.size a ≤ (i a).val
          ∧ (i a).val < win1_1.index t a * S1x512x64.size a + S1x512x64.size a := by
  show i ∈ ((View.whole main_v5).slice (win1_1.rect t)).set ↔ _
  rw [View.set_slice_whole, Rect.mem_set_unit]
  exact Iff.rfl

/-- Entry (g, n, k) lies in the block of the point with coordinates (g, n / 512), which is written back. -/
theorem cover (i : S32x2048x64.Idx) :
    ∃ t : Fin cfg1.N, (cfg1.win 1).flush t = true ∧ i ∈ ((cfg1.win 1).blk t).view.set := by
  have h0 : (i 0).val < 32 := (i 0).isLt
  have h1 : (i 1).val < 2048 := (i 1).isLt
  have h2 : (i 2).val < 64 := (i 2).isLt
  have hN : cfg1.N = 128 := N_1
  obtain ⟨t, tv⟩ : ∃ t : Fin cfg1.N, t.val = 4 * (i 0).val + (i 1).val / 512 :=
    ⟨⟨4 * (i 0).val + (i 1).val / 512, by rw [hN]; omega⟩, rfl⟩
  refine ⟨t, flush1_1 t, ?_⟩
  rw [mem_blk]
  obtain ⟨-, -, -, -, -, -, b0, b1, b2⟩ := grid_facts t
  intro a
  match a with
  | ⟨0, _⟩ =>
    show win1_1.index t 0 * 1 ≤ (i 0).val ∧ (i 0).val < win1_1.index t 0 * 1 + 1
    rw [b0]; omega
  | ⟨1, _⟩ =>
    show win1_1.index t 1 * 512 ≤ (i 1).val ∧ (i 1).val < win1_1.index t 1 * 512 + 512
    rw [b1]; omega
  | ⟨2, _⟩ =>
    show win1_1.index t 2 * 64 ≤ (i 2).val ∧ (i 2).val < win1_1.index t 2 * 64 + 64
    rw [b2]; omega

end Blocks

/-- After the region the output array is every head attended with itself, of the input array as the region found it;
    the scale is the value of the 16-bit word 0x3E00. -/
theorem arr (c : Dev nD) :
    (dat1 (F := Ideal) V c).arrAt 1 cfg1.N
      = Cert.Attn.attnAll (Ideal.ofBits .bf16 0x3E00#16) (V c (Pipeline.arrRef spec1 0)) :=
  (dat1 (F := Ideal) V c).arrAt_eq_of_cover 1
    (Cert.Attn.attnAll (Ideal.ofBits .bf16 0x3E00#16) (V c (Pipeline.arrRef spec1 0)))
    (fun t _ => Blocks.flushed_eq V c t) (fun i => Blocks.cover i)

end Cert.KernelIdeal.Region1

end
-- ==== Proof.Region2.lean ====
/-
  What the output projection leaves in its output array: the 4096 × 1024 matrix of attended rows times the weights,
  four blocks of 1024 rows, each block the product of that block of rows with the whole weight matrix.
-/
import proofs.«412328_j29764123361749_3_alg».proof.Proof.Gen.KernelIdeal.Frame
import proofs.«412328_j29764123361749_3_alg».proof.Proof.Spec
import proofs.«412328_j29764123361749_3_alg».proof.Proof.LibRows
set_option maxRecDepth 16384

noncomputable section

namespace Cert.KernelIdeal.Region2

open Idealize.ShloMosaic Idealize.ShloMosaic.ValueIdx Idealize.ShloMosaic.TcCoe Idealize.SL.Sem
open Idealize.ShloMosaic.Pipeline (Dat)
open Cert.KernelIdeal Cert.KernelIdeal.Gen
open Idealize.ShloMosaic.Rows
variable (V : (c : Dev nD) → (b : Ref sig .tc) → Buf (Elt Ideal) ((c : Thread nD τ).loc b))

/-- The sum over the one contracted axis of a plain product, re-indexed by its coordinate, whatever the operands' formats. -/
theorem plain_sum_any {N K M : ℕ} {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A plain product into a zero accumulator, at (i, j), whatever the operands' formats. -/
theorem matmul_plain_any {N K M : ℕ} {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The body's stored value at (p, q): row p of the first block against column q of the second. -/
theorem pay_apply (x0 : Vec Ideal S1024x1024 .bf16) (x1 : Vec Ideal S1024x1024 .f32) (p q : Fin 1024) :
    k2_pay1 (F := Ideal) x0 x1 (ix2 p q) = ∑ e : Fin 1024, x0 (ix2 p e) * x1 (ix2 e q) := by
  unfold k2_pay1
  refine (matmul_plain_any (N := 1024) (K := 1024) (M := 1024) (φ₁ := .bf16) (φ₂ := .bf16) _ _ p q).trans ?_
  rw [shapeCast_self]
  rfl

/-- The zero offsets of a whole-buffer access. -/
theorem hz : (![0, 0] : Fin 2 → Nat) = fun _ => 0 := funext fun a => by fin_cases a <;> rfl

/-- The index maps over the grid: the row block of the first input and of the output is the point's number,
    every other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of the product from the blocks: when row p of the first block is row r of Y and column q of the
    second block is column q of W, entry (p, q) of the stored block is entry (r, q) of Y · W. -/
theorem entry_of_blocks (Y : Cert.Attn.Flat) (W : Cert.Attn.Wgt) (x0 : Vec Ideal S1024x1024 .bf16) (x1 : Vec Ideal S1024x1024 .f32)
    (r : Fin 4096) (p q : Fin 1024)
    (h0 : ∀ e : Fin 1024, x0 (ix2 p e) = Y (ix2 r e)) (h1 : ∀ e : Fin 1024, x1 (ix2 e q) = W (ix2 e q)) :
    k2_pay1 (F := Ideal) x0 x1 (ix2 p q) = Cert.Attn.projP Y W (ix2 r q) := by
  rw [pay_apply]
  unfold Cert.Attn.projP
  exact Finset.sum_congr rfl fun e _ => by rw [h0 e, h1 e]

/-- What point t writes back is block t of Y · W of the two input arrays as the region finds them. -/
theorem flushed_eq (c : Dev nD) (t : Fin cfg2.N) :
    (dat2 (F := Ideal) V c).flushed 2 t = ((cfg2.win 2).blk t).view.read (Elt Ideal)
      (Cert.Attn.projP (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S1024x1024) hz]
  obtain ⟨e0, e1, e2, e3, e4, e5⟩ := idx_facts t
  funext j
  have hj0 : (j 0).val < 1024 := (j 0).isLt
  have hj1 : (j 1).val < 1024 := (j 1).isLt
  have ht : t.val < 4 := Nat.lt_of_lt_of_eq t.isLt N_2
  have hx : (win2 2).xinj (grid2.coords t) j = ix2 (⟨(j 0).val, hj0⟩ : Fin 1024) (⟨(j 1).val, hj1⟩ : Fin 1024) :=
    funext fun a => by match a with | ⟨0, _⟩ => rfl | ⟨1, _⟩ => rfl
  have hemb : ((cfg2.win 2).blk t).view.emb j
      = ix2 (⟨t.val * 1024 + (j 0).val, by omega⟩ : Fin 4096) (⟨(j 1).val, hj1⟩ : Fin 1024) := by
    funext a; apply Fin.ext
    match a with
    | ⟨0, _⟩ => show win2_2.index t (0 : Fin 2) * 1024 + 1 * (j 0).val = t.val * 1024 + (j 0).val; rw [e4]; omega
    | ⟨1, _⟩ => show win2_2.index t (1 : Fin 2) * 1024 + 1 * (j 1).val = (j 1).val; rw [e5]; omega
  show k2_pay1 (F := Ideal) (iblk2 V c 0 t) (iblk2 V c 1 t) ((win2 2).xinj (grid2.coords t) j)
      = Cert.Attn.projP (V c (Pipeline.arrRef spec2 0)) (V c (Pipeline.arrRef spec2 1)) (((cfg2.win 2).blk t).view.emb j)
  rw [hx, hemb]
  refine entry_of_blocks _ _ _ _ _ _ _ (fun e => ?_) (fun e => ?_)
  · show V c (Pipeline.arrRef spec2 0) (((cfg2.win 0).blk t).view.emb (ix2 (⟨(j 0).val, hj0⟩ : Fin 1024) e)) = _
    congr 1
    funext a; apply Fin.ext
    match a with
    | ⟨0, _⟩ => show win2_0.index t (0 : Fin 2) * 1024 + 1 * (j 0).val = t.val * 1024 + (j 0).val; rw [e0]; omega
    | ⟨1, _⟩ => show win2_0.index t (1 : Fin 2) * 1024 + 1 * e.val = e.val; rw [e1]; omega
  · show V c (Pipeline.arrRef spec2 1) (((cfg2.win 1).blk t).view.emb (ix2 e (⟨(j 1).val, hj1⟩ : Fin 1024))) = _
    congr 1
    funext a; apply Fin.ext
    match a with
    | ⟨0, _⟩ => show win2_1.index t (0 : Fin 2) * 1024 + 1 * e.val = e.val; rw [e2]; omega
    | ⟨1, _⟩ => show win2_1.index t (1 : Fin 2) * 1024 + 1 * (j 1).val = (j 1).val; rw [e3]; omega

/-- An index of the output array is in point t's block iff each coordinate is in the block's range on its axis. -/
theorem mem_blk (t : Fin cfg2.N) (i : S4096x1024.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v9).slice (win2_2.rect t)).set ↔ _
  rw [View.set_slice_whole, Rect.mem_set_unit]
  exact Iff.rfl

/-- Every index of the output array is in some point's block: row r is in the block of point r / 1024. -/
theorem cover (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ : ∃ t : Fin cfg2.N, t.val = (i 0).val / 1024 :=
    ⟨⟨(i 0).val / 1024, by rw [show cfg2.N = 4 from N_2]; omega⟩, rfl⟩
  obtain ⟨e0, e1, e2, e3, e4, e5⟩ := idx_facts t
  refine ⟨t, flush2_2 t, ?_⟩
  rw [mem_blk]
  intro a
  match a with
  | ⟨0, _⟩ =>
    show win2_2.index t (0 : Fin 2) * 1024 ≤ (i 0).val ∧ (i 0).val < win2_2.index t (0 : Fin 2) * 1024 + 1024
    rw [e4, ht]; omega
  | ⟨1, _⟩ =>
    show win2_2.index t (1 : Fin 2) * 1024 ≤ (i 1).val ∧ (i 1).val < win2_2.index t (1 : Fin 2) * 1024 + 1024
    rw [e5]; omega

/-- After the region the output array is Y · W of the two input arrays as the region found them. -/
theorem arr (c : Dev nD) :
    (dat2 (F := Ideal) V c).arrAt 2 cfg2.N
      = Cert.Attn.projP (V c (Pipeline.arrRef spec2 0)) (V c (Pipeline.arrRef spec2 1)) :=
  (dat2 (F := Ideal) V c).arrAt_eq_of_cover 2
    (Cert.Attn.projP (V c (Pipeline.arrRef spec2 0)) (V c (Pipeline.arrRef spec2 1)))
    (fun t _ => flushed_eq V c t) cover

end Cert.KernelIdeal.Region2

end
-- ==== Proof.Layout.lean ====
/-
  The row-major re-layouts between the token array (2 × 2048 × 1024), the matrix of all tokens (4096 × 1024) and the
  array of all heads (32 × 2048 × 64), each read at an index: a reshape keeps the row-major position, a transpose
  exchanges two coordinates.
    flat:    row 2048·b + n is token (b, n);
    heads:   reshape to 2 × 2048 × 16 × 64, exchange position and head, merge (batch, head): entry (16·b + h, n, k) is
             entry (2048·b + n, 64·h + k);
    unheads: the inverse re-layout;  unflat: rows as tokens again.
-/
import proofs.«412328_j29764123361749_3_alg».proof.Proof.Spec
import Idealize.ShloMosaic.Lib.Pipeline.Value
import Idealize.ShloMosaic.Lib.ValueIdx

noncomputable section

namespace Cert.Attn

open Idealize.ShloMosaic Idealize.ShloMosaic.ValueIdx

/-- Merging batch and position into one row axis. -/
theorem flat_eq (X : Tok) (h : (⟨3, ![2, 2048, 1024]⟩ : Shape).ShapeCasts ⟨2, ![4096, 1024]⟩) :
    shapeCast ⟨2, ![4096, 1024]⟩ X h = flat X := by
  funext i
  obtain ⟨r, d, rfl⟩ : ∃ (r : Fin 4096) (d : Fin 1024), i = ix2 r d := ⟨i 0, i 1, eq_ix2 i⟩
  refine shapeCast_apply X h (ix2 r d) (ix3 (rowB r) (rowN r) d) ?_
  rw [Shape.rowMajor_val_three, Shape.rowMajor_val_two]
  show ((r.val / 2048) * 2048 + r.val % 2048) * 1024 + d.val = r.val * 1024 + d.val
  omega

/-- Splitting rows into (batch, position) again. -/
theorem unflat_eq (Y : Flat) (h : (⟨2, ![4096, 1024]⟩ : Shape).ShapeCasts ⟨3, ![2, 2048, 1024]⟩) :
    shapeCast ⟨3, ![2, 2048, 1024]⟩ Y h = unflat Y := by
  funext i
  obtain ⟨b, n, d, rfl⟩ : ∃ (b : Fin 2) (n : Fin 2048) (d : Fin 1024), i = ix3 b n d := ⟨i 0, i 1, i 2, eq_ix3 i⟩
  refine shapeCast_apply Y h (ix3 b n d) (ix2 (mkRow b n) d) ?_
  rw [Shape.rowMajor_val_three, Shape.rowMajor_val_two]
  show (b.val * 2048 + n.val) * 1024 + d.val = (b.val * 2048 + n.val) * 1024 + d.val
  rfl

/-- Rows split into heads: the feature axis split 16 × 64, position and head exchanged, batch and head merged. -/
theorem heads_eq (Y : Flat) (h1 : (⟨2, ![4096, 1024]⟩ : Shape).ShapeCasts ⟨4, ![2, 2048, 16, 64]⟩)
    (h2 : (⟨4, ![2, 2048, 16, 64]⟩ : Shape).Transposes [0, 2, 1, 3] ⟨4, ![2, 16, 2048, 64]⟩)
    (h3 : (⟨4, ![2, 16, 2048, 64]⟩ : Shape).ShapeCasts ⟨3, ![32, 2048, 64]⟩) :
    shapeCast ⟨3, ![32, 2048, 64]⟩ (transpose ⟨4, ![2, 16, 2048, 64]⟩ [0, 2, 1, 3] (shapeCast ⟨4, ![2, 2048, 16, 64]⟩ Y h1) h2) h3
      = heads Y := by
  funext i
  obtain ⟨g, n, k, rfl⟩ : ∃ (g : Fin 32) (n : Fin 2048) (k : Fin 64), i = ix3 g n k := ⟨i 0, i 1, i 2, eq_ix3 i⟩
  have hg := g.isLt
  have e3 := shapeCast_apply (transpose ⟨4, ![2, 16, 2048, 64]⟩ [0, 2, 1, 3] (shapeCast ⟨4, ![2, 2048, 16, 64]⟩ Y h1) h2) h3
    (ix3 g n k) (ix4 (grpB g) (grpH g) n k) (by
      rw [Shape.rowMajor_val_four, Shape.rowMajor_val_three]
      show (((g.val / 16) * 16 + g.val % 16) * 2048 + n.val) * 64 + k.val = (g.val * 2048 + n.val) * 64 + k.val
      omega)
  have e2 := transpose_apply [0, 2, 1, 3] (shapeCast ⟨4, ![2, 2048, 16, 64]⟩ Y h1) h2
    (ix4 (grpB g) (grpH g) n k) (ix4 (grpB g) n (grpH g) k) (fun b => match b with
      | ⟨0, _⟩ => rfl
      | ⟨1, _⟩ => rfl
      | ⟨2, _⟩ => rfl
      | ⟨3, _⟩ => rfl)
  have e1 := shapeCast_apply Y h1 (ix4 (grpB g) n (grpH g) k) (ix2 (mkRow (grpB g) n) (mkCol (grpH g) k)) (by
      rw [Shape.rowMajor_val_two, Shape.rowMajor_val_four]
      show ((g.val / 16) * 2048 + n.val) * 1024 + ((g.val % 16) * 64 + k.val)
        = ((((g.val / 16) * 2048 + n.val) * 16 + g.val % 16) * 64 + k.val)
      omega)
  exact e3.trans (e2.trans e1)

/-- Heads joined back into rows: batch and head split, head and position exchanged, (head, feature) merged. -/
theorem unheads_eq (O : Heads) (h1 : (⟨3, ![32, 2048, 64]⟩ : Shape).ShapeCasts ⟨4, ![2, 16, 2048, 64]⟩)
    (h2 : (⟨4, ![2, 16, 2048, 64]⟩ : Shape).Transposes [0, 2, 1, 3] ⟨4, ![2, 2048, 16, 64]⟩)
    (h3 : (⟨4, ![2, 2048, 16, 64]⟩ : Shape).ShapeCasts ⟨2, ![4096, 1024]⟩) :
    shapeCast ⟨2, ![4096, 1024]⟩ (transpose ⟨4, ![2, 2048, 16, 64]⟩ [0, 2, 1, 3] (shapeCast ⟨4, ![2, 16, 2048, 64]⟩ O h1) h2) h3
      = unheads O := by
  funext i
  obtain ⟨r, e, rfl⟩ : ∃ (r : Fin 4096) (e : Fin 1024), i = ix2 r e := ⟨i 0, i 1, eq_ix2 i⟩
  have hr := r.isLt
  have he := e.isLt
  have e3 := shapeCast_apply (transpose ⟨4, ![2, 2048, 16, 64]⟩ [0, 2, 1, 3] (shapeCast ⟨4, ![2, 16, 2048, 64]⟩ O h1) h2) h3
    (ix2 r e) (ix4 (rowB r) (rowN r) (colH e) (colK e)) (by
      rw [Shape.rowMajor_val_four, Shape.rowMajor_val_two]
      show (((r.val / 2048) * 2048 + r.val % 2048) * 16 + e.val / 64) * 64 + e.val % 64 = r.val * 1024 + e.val
      omega)
  have e2 := transpose_apply [0, 2, 1, 3] (shapeCast ⟨4, ![2, 16, 2048, 64]⟩ O h1) h2
    (ix4 (rowB r) (rowN r) (colH e) (colK e)) (ix4 (rowB r) (colH e) (rowN r) (colK e)) (fun b => match b with
      | ⟨0, _⟩ => rfl
      | ⟨1, _⟩ => rfl
      | ⟨2, _⟩ => rfl
      | ⟨3, _⟩ => rfl)
  have e1 := shapeCast_apply O h1 (ix4 (rowB r) (colH e) (rowN r) (colK e)) (ix3 (mkGrp (rowB r) (colH e)) (rowN r) (colK e)) (by
      rw [Shape.rowMajor_val_three, Shape.rowMajor_val_four]
      show (((r.val / 2048) * 16 + e.val / 64) * 2048 + r.val % 2048) * 64 + e.val % 64
        = ((((r.val / 2048) * 16 + e.val / 64) * 2048 + r.val % 2048) * 64 + e.val % 64)
      rfl)
  exact e3.trans (e2.trans e1)

end Cert.Attn

end
-- ==== Proof.KernelValue.lean ====
/-
  The program's result, read through its three regions and the re-layouts between them, is the operator's
  layer-by-layer spelling of the two arguments:
    tokens → rows → X · Wᵀ (region 0) → heads → every head attended with itself (region 1) → rows → · W (region 2) → tokens.
  Each region's output array is its layer applied to the region's input arrays as it found them; each stretch of host
  operations between the regions is a reshape, a transpose and a reshape, read as one re-layout; the weights reach every
  region unchanged.
-/
import proofs.«412328_j29764123361749_3_alg».proof.Proof.Region0
import proofs.«412328_j29764123361749_3_alg».proof.Proof.Region1
import proofs.«412328_j29764123361749_3_alg».proof.Proof.Region2
import proofs.«412328_j29764123361749_3_alg».proof.Proof.Layout
import proofs.«412328_j29764123361749_3_alg».proof.Proof.ValueRun
import Idealize.ShloMosaic.Lib.StableHlo.Run

set_option maxRecDepth 16384

noncomputable section

namespace Cert.KernelIdeal.KernelValue

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The scale of the attention region: the value of the 16-bit word 0x3E00. -/
abbrev scale : EReal := Ideal.ofBits .bf16 0x3E00#16

/-! ## Region 0's entry: the tokens as rows, the weights as launched -/

theorem entry0_rows (c : Dev nD) :
    V1 m ρ c main_v0 = Cert.Attn.flat (m ((c : Thread nD τ).loc main_arg0)) := by
  refine Eq.trans ?_ (Cert.Attn.flat_eq (m ((c : Thread nD τ).loc main_arg0)) shapeCasts_S2x2048x1024_S4096x1024)
  show StableHlo.after hostOps0 (W0 m ρ c) (Proc.devRef .tc main_v0) = _
  after_results
  rfl

theorem entry0_weights (c : Dev nD) : V1 m ρ c main_arg1 = m ((c : Thread nD τ).loc main_arg1) := by
  show StableHlo.after hostOps0 (W0 m ρ c) (Proc.devRef .tc main_arg1) = _
  after_results

/-- Region 0 leaves X · Wᵀ. -/
theorem exit0 (c : Dev nD) :
    W2 m ρ c (Proc.devRef .tc main_v1)
      = Cert.Attn.projT (Cert.Attn.flat (m ((c : Thread nD τ).loc main_arg0))) (m ((c : Thread nD τ).loc main_arg1)) := by
  refine (W2_arr m ρ c 2).trans ((Cert.KernelIdeal.Region0.arr (V1 m ρ) c).trans ?_)
  rw [show V1 m ρ c (Pipeline.arrRef spec0 0) = _ from entry0_rows m ρ c,
    show V1 m ρ c (Pipeline.arrRef spec0 1) = _ from entry0_weights m ρ c]

/-! ## Region 1's entry: the projection split into heads -/

theorem entry1 (c : Dev nD) :
    V3 m ρ c main_v4
      = Cert.Attn.heads (Cert.Attn.projT (Cert.Attn.flat (m ((c : Thread nD τ).loc main_arg0))) (m ((c : Thread nD τ).loc main_arg1))) := by
  rw [← exit0 m ρ c]
  refine Eq.trans ?_ (Cert.Attn.heads_eq (W2 m ρ c (Proc.devRef .tc main_v1)) shapeCasts_S4096x1024_S2x2048x16x64
    transposes_S2x2048x16x64_S2x16x2048x64_0_2_1_3 shapeCasts_S2x16x2048x64_S32x2048x64)
  show StableHlo.after hostOps1 (W2 m ρ c) (Proc.devRef .tc main_v4) = _
  after_results
  rfl

/-- Region 1 leaves every head attended with itself. -/
theorem exit1 (c : Dev nD) :
    W4 m ρ c (Proc.devRef .tc main_v5)
      = Cert.Attn.attnAll scale (Cert.Attn.heads (Cert.Attn.projT (Cert.Attn.flat (m ((c : Thread nD τ).loc main_arg0))) (m ((c : Thread nD τ).loc main_arg1)))) := by
  refine (W4_arr m ρ c 1).trans ((Cert.KernelIdeal.Region1.arr (V3 m ρ) c).trans ?_)
  rw [show V3 m ρ c (Pipeline.arrRef spec1 0) = _ from entry1 m ρ c]

/-! ## Region 2's entry: the heads joined into rows, the weights as launched -/

theorem entry2_rows (c : Dev nD) :
    V5 m ρ c main_v8
      = Cert.Attn.unheads (Cert.Attn.attnAll scale (Cert.Attn.heads (Cert.Attn.projT (Cert.Attn.flat (m ((c : Thread nD τ).loc main_arg0))) (m ((c : Thread nD τ).loc main_arg1))))) := by
  rw [← exit1 m ρ c]
  refine Eq.trans ?_ (Cert.Attn.unheads_eq (W4 m ρ c (Proc.devRef .tc main_v5)) shapeCasts_S32x2048x64_S2x16x2048x64
    transposes_S2x16x2048x64_S2x2048x16x64_0_2_1_3 shapeCasts_S2x2048x16x64_S4096x1024)
  show StableHlo.after hostOps2 (W4 m ρ c) (Proc.devRef .tc main_v8) = _
  after_results
  rfl

theorem entry2_weights (c : Dev nD) : V5 m ρ c main_arg1 = m ((c : Thread nD τ).loc main_arg1) := by
  have h76 : W7 m ρ c (Proc.devRef .tc main_arg1) = W6 m ρ c (Proc.devRef .tc main_arg1) := by
    show StableHlo.after hostOps3 (W6 m ρ c) (Proc.devRef .tc main_arg1) = _
    after_results
  have h65 : W6 m ρ c (Proc.devRef .tc main_arg1) = W5 m ρ c (Proc.devRef .tc main_arg1) :=
    (W6_arr m ρ c 1).trans (((dat2 (V5 m ρ) c).arrAt_in 1 rfl _).trans (A_eq2 (V5 m ρ) c 1))
  exact h65.symm.trans (h76.symm.trans (W7_main_arg1 m ρ c))

/-- Region 2 leaves the attended rows times the weights. -/
theorem exit2 (c : Dev nD) :
    W6 m ρ c (Proc.devRef .tc main_v9)
      = Cert.Attn.projP (Cert.Attn.unheads (Cert.Attn.attnAll scale (Cert.Attn.heads (Cert.Attn.projT (Cert.Attn.flat (m ((c : Thread nD τ).loc main_arg0))) (m ((c : Thread nD τ).loc main_arg1))))))
          (m ((c : Thread nD τ).loc main_arg1)) := by
  refine (W6_arr m ρ c 2).trans ((Cert.KernelIdeal.Region2.arr (V5 m ρ) c).trans ?_)
  rw [show V5 m ρ c (Pipeline.arrRef spec2 0) = _ from entry2_rows m ρ c,
    show V5 m ρ c (Pipeline.arrRef spec2 1) = _ from entry2_weights m ρ c]

/-! ## The result -/

/-- After the last reshape the result buffer holds the layer-by-layer spelling of the two arguments. -/
theorem result_eq (c : Dev nD) :
    W7 m ρ c (Proc.devRef .tc main_v10)
      = Cert.Attn.kernelSpec scale (m ((c : Thread nD τ).loc main_arg0)) (m ((c : Thread nD τ).loc main_arg1)) := by
  unfold Cert.Attn.kernelSpec
  rw [← exit2 m ρ c]
  refine Eq.trans ?_ (Cert.Attn.unflat_eq (W6 m ρ c (Proc.devRef .tc main_v9)) shapeCasts_S4096x1024_S2x2048x1024)
  show StableHlo.after hostOps3 (W6 m ρ c) (Proc.devRef .tc main_v10) = _
  after_results
  rfl

/-- Every weakly fair execution of the program terminates, nothing faulting, with the result buffer at the
    layer-by-layer spelling of the arguments and the arguments as launched. -/
theorem run : θ_run defs (onTc (τ := τ) (main (F := Ideal))) ⟨m, fun _ => 0, ρ⟩ (fun r => ∀ c : Dev nD,
      r.2.mem ((c.tc : Thread nD τ).loc main_v10)
        = Cert.Attn.kernelSpec scale (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩)
    (Cert.KernelIdeal.ValueRun.run_result (F := Ideal) m ρ)

end Cert.KernelIdeal.KernelValue

end
-- ==== Proof.RefValue.lean ====
/-
  The reference program's result, read one operation at a time, is the operator's second spelling: the shared projection
  split into heads, scaled inner products, a max-shifted softmax whose every weight is divided by the row sum, the weighted
  sums, the heads joined, the output projection.
-/
import proofs.«412328_j29764123361749_3_alg».proof.Proof.Gen.ReferenceIdeal.Read
import proofs.«412328_j29764123361749_3_alg».proof.Proof.Spec
import proofs.«412328_j29764123361749_3_alg».proof.Proof.LibCosineSoftmax
import Idealize.ShloMosaic.Lib.ReduceAll

set_option maxRecDepth 16384

noncomputable section

namespace Cert.ReferenceIdeal.RefValue

open Idealize.ShloMosaic Idealize.ShloMosaic.ValueIdx Idealize.ShloMosaic.Rows
open Cert.ReferenceIdeal Cert.ReferenceIdeal.Gen Cert.ReferenceIdeal.Read

open Cert.Attn

section Stages
variable (x0 : (⟨S2x2048x1024, .f32⟩ : BufTy).Contents (Elt Ideal)) (x1 : (⟨S1024x1024, .f32⟩ : BufTy).Contents (Elt Ideal))

/-- The shared projection at (b, n, e): the inner product of token (b, n) with row e of the weights. -/
theorem proj_at (b : Fin 2) (n : Fin 2048) (e : Fin 1024) :
    val_main_v0 (F := Ideal) x0 x1 (ix3 b n e) = ∑ d : Fin 1024, x0 (ix3 b n d) * x1 (ix2 e d) := by
  rw [val_main_v0_apply]
  refine Finset.sum_congr rfl fun d _ => ?_
  have el : lidx_main_v0 (ix3 b n e) d = ix3 b n d := funext fun a => Fin.ext (by
    match a with
    | ⟨0, _⟩ => rfl
    | ⟨1, _⟩ => rfl
    | ⟨2, _⟩ => rfl)
  have er : ridx_main_v0 (ix3 b n e) d = ix2 e d := funext fun a => Fin.ext (by
    match a with
    | ⟨0, _⟩ => rfl
    | ⟨1, _⟩ => rfl)
  rw [el, er]

/-- Splitting the feature axis into 16 heads of width 64 and moving the head axis forward reads feature 64h + k. -/
theorem head_idx (b : Fin 2) (h : Fin 16) (n : Fin 2048) (k : Fin 64) :
    idx_main_v1 (idx_main_v2 (ix4 b h n k)) = ix3 b n (mkCol h k) := funext fun a => Fin.ext (by
  have hb := b.isLt
  have hh := h.isLt
  have hn := n.isLt
  have hk := k.isLt
  match a with
  | ⟨0, _⟩ =>
    show ((((b.val * 2048 + n.val) * 16 + h.val) * 64 + k.val) / 2097152 : ℕ) = b.val
    omega
  | ⟨1, _⟩ =>
    show ((((b.val * 2048 + n.val) * 16 + h.val) * 64 + k.val) / 1024 % 2048 : ℕ) = n.val
    omega
  | ⟨2, _⟩ =>
    show ((((b.val * 2048 + n.val) * 16 + h.val) * 64 + k.val) % 1024 : ℕ) = h.val * 64 + k.val
    omega)

/-- Head (b, h) of the shared projection. -/
theorem heads_at (b : Fin 2) (h : Fin 16) (n : Fin 2048) (k : Fin 64) :
    val_main_v2 (F := Ideal) x0 x1 (ix4 b h n k) = headTable x0 x1 b h n k := by
  rw [val_main_v2_apply, val_main_v1_apply, head_idx, proj_at]
  rfl

end Stages

section Scores
variable (x0 : (⟨S2x2048x1024, .f32⟩ : BufTy).Contents (Elt Ideal)) (x1 : (⟨S1024x1024, .f32⟩ : BufTy).Contents (Elt Ideal))

/-- The scaled inner product of positions n and m of head (b, h). -/
theorem scores_at (b : Fin 2) (h : Fin 16) (n m : Fin 2048) :
    val_main_v5 (F := Ideal) x0 x1 (ix4 b h n m)
      = scoreR (Ideal.ofBits .f32 0x3E000000#32) (headTable x0 x1 b h) n m := by
  rw [val_main_v5_apply, val_main_v4_apply, val_main_cst_apply, val_main_v3_apply]
  show (∑ k : Fin 64, _) * Ideal.ofBits .f32 0x3E000000#32 = (∑ k : Fin 64, _) * _
  refine congrArg (· * Ideal.ofBits .f32 0x3E000000#32) (Finset.sum_congr rfl fun k _ => ?_)
  have el : lidx_main_v3 (ix4 b h n m) k = ix4 b h n k := funext fun a => Fin.ext (by
    match a with
    | ⟨0, _⟩ => rfl
    | ⟨1, _⟩ => rfl
    | ⟨2, _⟩ => rfl
    | ⟨3, _⟩ => rfl)
  have er : ridx_main_v3 (ix4 b h n m) k = ix4 b h m k := funext fun a => Fin.ext (by
    match a with
    | ⟨0, _⟩ => rfl
    | ⟨1, _⟩ => rfl
    | ⟨2, _⟩ => rfl
    | ⟨3, _⟩ => rfl)
  rw [el, er, heads_at, heads_at]

/-- The coordinate a reduction along the last of four axes reads. -/
theorem lift_ix3 (hr : S2x16x2048x2048.Reduces [3] S2x16x2048) (b : Fin 2) (h : Fin 16) (n m : Fin 2048) :
    hr.lift (ix3 b h n) m = ix4 b h n m :=
  funext fun a => Fin.ext (by
    match a with
    | ⟨0, _⟩ => rfl
    | ⟨1, _⟩ => rfl
    | ⟨2, _⟩ => rfl
    | ⟨3, _⟩ => rfl)

/-- The largest score of row n of head (b, h), folded from the value of the word 0xFF800000. -/
theorem rowmax_at (b : Fin 2) (h : Fin 16) (n : Fin 2048) :
    val_main_v6 (F := Ideal) x0 x1 (ix3 b h n)
      = rowMax (scoreR (Ideal.ofBits .f32 0x3E000000#32) (headTable x0 x1 b h) n) := by
  unfold val_main_v6
  rw [Host.reduce_eq_fold_single FloatOps.maximumf _ _ reducesTo_S2x16x2048x2048_S2x16x2048_d3 (by decide) h_S_]
  show _ = rowMax (scoreR (Ideal.ofBits .f32 0x3E000000#32) (headTable x0 x1 b h) n)
  unfold rowMax
  congr 1
  funext m
  exact (congrArg (val_main_v5 (F := Ideal) x0 x1) (lift_ix3 _ b h n m)).trans (scores_at x0 x1 b h n m)

end Scores

section Softmax
variable (x0 : (⟨S2x2048x1024, .f32⟩ : BufTy).Contents (Elt Ideal)) (x1 : (⟨S1024x1024, .f32⟩ : BufTy).Contents (Elt Ideal))

/-- Joining the row maximum once more with the value it was folded from changes nothing. -/
theorem rowmax2_at (b : Fin 2) (h : Fin 16) (n : Fin 2048) :
    val_main_v8 (F := Ideal) x0 x1 (ix3 b h n)
      = rowMax (scoreR (Ideal.ofBits .f32 0x3E000000#32) (headTable x0 x1 b h) n) := by
  rw [val_main_v8_apply, val_main_v7_apply, val_main_cst_1_apply, rowmax_at]
  show max (Ideal.ofBits .f32 0xFF800000#32) _ = _
  rw [max_init_rowMax]

/-- Every weight of row n: exp of the score shifted by the row maximum. -/
theorem expshift_at (b : Fin 2) (h : Fin 16) (n m : Fin 2048) :
    val_main_v12 (F := Ideal) x0 x1 (ix4 b h n m)
      = Ideal.exp (scoreR (Ideal.ofBits .f32 0x3E000000#32) (headTable x0 x1 b h) n m
          - rowMax (scoreR (Ideal.ofBits .f32 0x3E000000#32) (headTable x0 x1 b h) n)) := by
  have e : idx_main_v9 (idx_main_v10 (ix4 b h n m)) = ix3 b h n := funext fun a => Fin.ext (by
    match a with
    | ⟨0, _⟩ => rfl
    | ⟨1, _⟩ => rfl
    | ⟨2, _⟩ => rfl)
  rw [val_main_v12_apply, val_main_v11_apply, val_main_v10_apply, val_main_v9_apply, e, rowmax2_at, scores_at]
  rfl

/-- The sum of the weights of row n. -/
theorem expsum_at (b : Fin 2) (h : Fin 16) (n : Fin 2048) :
    val_main_v13 (F := Ideal) x0 x1 (ix3 b h n)
      = ∑ j : Fin 2048, Ideal.exp (scoreR (Ideal.ofBits .f32 0x3E000000#32) (headTable x0 x1 b h) n j
          - rowMax (scoreR (Ideal.ofBits .f32 0x3E000000#32) (headTable x0 x1 b h) n)) := by
  rw [val_main_v13_apply, val_main_cst_2_apply]
  show Ideal.ofBits .f32 0x00000000#32 + _ = _
  rw [Ideal.ofBits_zero_f32, zero_add]
  refine Finset.sum_congr rfl fun j _ => ?_
  have e : idx_main_v13 (ix3 b h n) j = ix4 b h n j := funext fun a => Fin.ext (by
    match a with
    | ⟨0, _⟩ => rfl
    | ⟨1, _⟩ => rfl
    | ⟨2, _⟩ => rfl
    | ⟨3, _⟩ => rfl)
  rw [e, expshift_at]

/-- Every weight divided by the sum of its row. -/
theorem weights_at (b : Fin 2) (h : Fin 16) (n m : Fin 2048) :
    val_main_v16 (F := Ideal) x0 x1 (ix4 b h n m)
      = Ideal.div (Ideal.exp (scoreR (Ideal.ofBits .f32 0x3E000000#32) (headTable x0 x1 b h) n m
          - rowMax (scoreR (Ideal.ofBits .f32 0x3E000000#32) (headTable x0 x1 b h) n)))
        (∑ j : Fin 2048, Ideal.exp (scoreR (Ideal.ofBits .f32 0x3E000000#32) (headTable x0 x1 b h) n j
          - rowMax (scoreR (Ideal.ofBits .f32 0x3E000000#32) (headTable x0 x1 b h) n))) := by
  have e : idx_main_v14 (idx_main_v15 (ix4 b h n m)) = ix3 b h n := funext fun a => Fin.ext (by
    match a with
    | ⟨0, _⟩ => rfl
    | ⟨1, _⟩ => rfl
    | ⟨2, _⟩ => rfl)
  rw [val_main_v16_apply, val_main_v15_apply, val_main_v14_apply, e, expsum_at, expshift_at]
  rfl

/-- One head attended with itself. -/
theorem attn_at (b : Fin 2) (h : Fin 16) (n : Fin 2048) (k : Fin 64) :
    val_main_v17 (F := Ideal) x0 x1 (ix4 b h n k)
      = attnR (Ideal.ofBits .f32 0x3E000000#32) (headTable x0 x1 b h) n k := by
  rw [val_main_v17_apply]
  unfold attnR
  refine Finset.sum_congr rfl fun m _ => ?_
  have el : lidx_main_v17 (ix4 b h n k) m = ix4 b h n m := funext fun a => Fin.ext (by
    match a with
    | ⟨0, _⟩ => rfl
    | ⟨1, _⟩ => rfl
    | ⟨2, _⟩ => rfl
    | ⟨3, _⟩ => rfl)
  have er : ridx_main_v17 (ix4 b h n k) m = ix4 b h m k := funext fun a => Fin.ext (by
    match a with
    | ⟨0, _⟩ => rfl
    | ⟨1, _⟩ => rfl
    | ⟨2, _⟩ => rfl
    | ⟨3, _⟩ => rfl)
  rw [el, er, weights_at, heads_at]

end Softmax

section Output
variable (x0 : (⟨S2x2048x1024, .f32⟩ : BufTy).Contents (Elt Ideal)) (x1 : (⟨S1024x1024, .f32⟩ : BufTy).Contents (Elt Ideal))

/-- Moving the head axis back and joining the heads: feature e of the joined row is feature e mod 64 of head e / 64. -/
theorem join_idx (b : Fin 2) (n : Fin 2048) (e : Fin 1024) :
    idx_main_v18 (idx_main_v19 (ix3 b n e)) = ix4 b (colH e) n (colK e) := funext fun a => Fin.ext (by
  have hb := b.isLt
  have hn := n.isLt
  have he := e.isLt
  match a with
  | ⟨0, _⟩ =>
    show (((b.val * 2048 + n.val) * 1024 + e.val) / 2097152 : ℕ) = b.val
    omega
  | ⟨1, _⟩ =>
    show (((b.val * 2048 + n.val) * 1024 + e.val) / 64 % 16 : ℕ) = e.val / 64
    omega
  | ⟨2, _⟩ =>
    show (((b.val * 2048 + n.val) * 1024 + e.val) / 1024 % 2048 : ℕ) = n.val
    omega
  | ⟨3, _⟩ =>
    show (((b.val * 2048 + n.val) * 1024 + e.val) % 64 : ℕ) = e.val % 64
    omega)

/-- The heads joined back into rows. -/
theorem joined_at (b : Fin 2) (n : Fin 2048) (e : Fin 1024) :
    val_main_v19 (F := Ideal) x0 x1 (ix3 b n e)
      = attnR (Ideal.ofBits .f32 0x3E000000#32) (headTable x0 x1 b (colH e)) n (colK e) := by
  rw [val_main_v19_apply, val_main_v18_apply, join_idx, attn_at]

end Output

/-- The reference's last stage is the entry-by-entry spelling; the scale is the value of the 32-bit word 0x3E000000. -/
theorem ref_eq (x0 : (⟨S2x2048x1024, .f32⟩ : BufTy).Contents (Elt Ideal)) (x1 : (⟨S1024x1024, .f32⟩ : BufTy).Contents (Elt Ideal)) :
    val_main_v20 (F := Ideal) x0 x1 = Cert.Attn.refSpec (Ideal.ofBits .f32 0x3E000000#32) x0 x1 := by
  funext i
  obtain ⟨b, n, d, rfl⟩ : ∃ (b : Fin 2) (n : Fin 2048) (d : Fin 1024), i = ix3 b n d := ⟨i 0, i 1, i 2, eq_ix3 i⟩
  rw [val_main_v20_apply]
  show _ = ∑ e : Fin 1024, Cert.Attn.attnR (Ideal.ofBits .f32 0x3E000000#32) (Cert.Attn.headTable x0 x1 b (Cert.Attn.colH e)) n (Cert.Attn.colK e)
    * x1 (ix2 e d)
  refine Finset.sum_congr rfl fun e _ => ?_
  have el : lidx_main_v20 (ix3 b n d) e = ix3 b n e := funext fun a => Fin.ext (by
    match a with
    | ⟨0, _⟩ => rfl
    | ⟨1, _⟩ => rfl
    | ⟨2, _⟩ => rfl)
  have er : ridx_main_v20 (ix3 b n d) e = ix2 e d := funext fun a => Fin.ext (by
    match a with
    | ⟨0, _⟩ => rfl
    | ⟨1, _⟩ => rfl)
  rw [el, er, joined_at]

end Cert.ReferenceIdeal.RefValue

end
-- ==== Proof.LibSumDiv.lean ====
/-
  A sum of products, each second factor divided by one positive extended real, is the sum of the products divided by
  it. On the extended reals multiplication does not distribute over addition in general; it does when the common factor
  is a non-negative number other than +∞, and the inverse of a positive extended real is such a number (the inverse of
  +∞ is 0). No finiteness of the summands is needed.

  `Ideal.div` is the ideal instance's quotient: for a divisor other than 0 it is the product with the inverse.
-/
import Idealize.ShloMosaic.PureOps.Ideal
import Mathlib.Data.EReal.Inv

noncomputable section

namespace Cert.SumDiv

open Idealize.ShloMosaic

/-- A common non-negative factor other than +∞ comes out of a finite sum of extended reals. -/
theorem sum_mul_const {ι : Type} (s : Finset ι) (a : ι → EReal) {k : EReal} (hk : 0 ≤ k) (hk' : k ≠ ⊤) :
    ∑ f ∈ s, a f * k = (∑ f ∈ s, a f) * k := by
  classical
  induction s using Finset.induction_on with
  | empty => simp
  | insert i s hi ih =>
    rw [Finset.sum_insert hi, Finset.sum_insert hi, ih, EReal.right_distrib_of_nonneg_of_ne_top hk hk']

/-- The ideal quotient by a positive extended real is the product with its inverse. -/
theorem div_of_pos {D : EReal} (hD : 0 < D) (x : EReal) : Ideal.div x D = x * D⁻¹ := by
  unfold Ideal.div; rw [if_neg hD.ne']

/-- Dividing each second factor, or the whole sum, by a positive extended real is the same. -/
theorem sum_mul_div {ι : Type} [Fintype ι] (x y : ι → EReal) {D : EReal} (hD : 0 < D) :
    ∑ f, x f * Ideal.div (y f) D = Ideal.div (∑ f, x f * y f) D := by
  rw [div_of_pos hD]
  simp only [div_of_pos hD, ← mul_assoc]
  exact sum_mul_const _ _ (EReal.inv_nonneg_of_nonneg hD.le) (EReal.inv_lt_top D).ne

/-- The same with the divided factor first and the products of the undivided sum commuted. -/
theorem sum_div_mul {ι : Type} [Fintype ι] (x y : ι → EReal) {D : EReal} (hD : 0 < D) :
    ∑ f, x f * Ideal.div (y f) D = Ideal.div (∑ f, y f * x f) D := by
  rw [sum_mul_div x y hD]
  simp only [mul_comm]

/-- The larger of anything and a positive extended real is positive. -/
theorem max_pos_right (a : EReal) {e : EReal} (he : 0 < e) : 0 < max a e := lt_max_of_lt_right he

end Cert.SumDiv

end
-- ==== Proof.BridgeHead.lean ====
/-
  One head, two spellings, equal on a table of real numbers.

  Scaling the query row before the inner product, or the inner product afterwards, is the same on all extended reals:
  the scale 1/8 is a non-negative number other than +∞, so it comes out of the sum. The scores of a real table are real,
  their maximum is real, so every weight exp (score − max) is a positive real and the sum of the weights is positive;
  dividing the weighted sum once by it, or every weight before the sum, is then the same.
-/
import proofs.«412328_j29764123361749_3_alg».proof.Proof.Spec
import proofs.«412328_j29764123361749_3_alg».proof.Proof.LibSumDiv
import Mathlib.Data.EReal.Basic

noncomputable section

namespace Cert.Attn

open Idealize.ShloMosaic Idealize.ShloMosaic.ValueIdx Idealize.ShloMosaic.Rows

/-! ## The scale words -/

/-- The 16-bit word 0x3E00 (sign 0, exponent 124, fraction 0) denotes 2⁷ · 2^(124 − 127 − 7) = 1/8. -/
theorem scale_bf16 : Ideal.ofBits .bf16 0x3E00#16 = ((1 / 8 : ℝ) : EReal) := by
  simp [Ideal.ofBits, Ideal.ieee, -EReal.coe_mul]; norm_num

/-- The 32-bit word 0x3E000000 (sign 0, exponent 124, fraction 0) denotes 2²³ · 2^(124 − 127 − 23) = 1/8. -/
theorem scale_f32 : Ideal.ofBits .f32 0x3E000000#32 = ((1 / 8 : ℝ) : EReal) := by
  simp [Ideal.ofBits, Ideal.ieee, -EReal.coe_mul]; norm_num

/-- The word the fold of `max` starts from (sign 1, exponent all ones, fraction 0) denotes −∞. -/
theorem init_bot : Ideal.ofBits .f32 0xFF800000#32 = ⊥ := by
  simp [Ideal.ofBits, Ideal.ieee]

/-! ## Scores -/

section Head
variable {M D : ℕ}

/-- A non-negative scale other than +∞ can multiply the query row or the inner product: the scores are the same. -/
theorem scoreK_eq_scoreR {c : EReal} (hc : 0 ≤ c) (hc' : c ≠ ⊤) (a : Fin M → Fin D → EReal) (n : Fin M) :
    scoreK c a n = scoreR c a n := by
  funext m
  unfold scoreK scoreQ scoreR
  rw [← Cert.SumDiv.sum_mul_const _ _ hc hc']
  exact Finset.sum_congr rfl fun k _ => mul_right_comm _ _ _

/-- A finite sum of real numbers is a real number. -/
theorem exists_real_sum {ι : Type} (s : Finset ι) (f : ι → EReal) (hf : ∀ i, ∃ r : ℝ, f i = (r : EReal)) :
    ∃ r : ℝ, ∑ i ∈ s, f i = (r : EReal) := by
  classical
  induction s using Finset.induction_on with
  | empty => exact ⟨0, by simp⟩
  | insert i s hi ih =>
    obtain ⟨r, hr⟩ := ih
    obtain ⟨t, ht⟩ := hf i
    exact ⟨t + r, by rw [Finset.sum_insert hi, hr, ht, EReal.coe_add]⟩

/-- The scores of a real table under a real scale are real. -/
theorem scoreR_real (c : ℝ) (a : Fin M → Fin D → EReal) (ha : ∀ m k, ∃ r : ℝ, a m k = (r : EReal)) (n m : Fin M) :
    ∃ r : ℝ, scoreR (c : EReal) a n m = (r : EReal) := by
  unfold scoreR
  obtain ⟨r, hr⟩ := exists_real_sum Finset.univ (fun k => a n k * a m k) fun k => by
    obtain ⟨x, hx⟩ := ha n k
    obtain ⟨y, hy⟩ := ha m k
    exact ⟨x * y, by rw [hx, hy, EReal.coe_mul]⟩
  exact ⟨r * c, by rw [hr, EReal.coe_mul]⟩

/-! ## Weights -/

/-- The maximum of a row of real numbers is not +∞. -/
theorem rowMax_ne_top (s : Fin M → EReal) (hs : ∀ m, ∃ r : ℝ, s m = (r : EReal)) : rowMax s ≠ ⊤ := by
  refine ne_of_lt ?_
  unfold rowMax
  rw [Finset.fold_max_lt]
  refine ⟨?_, fun m _ => ?_⟩
  · rw [init_bot]; exact bot_lt_top
  · obtain ⟨r, hr⟩ := hs m
    rw [hr]; exact EReal.coe_lt_top r

/-- The exponential of anything other than −∞ is positive. -/
theorem exp_pos_of_ne_bot {x : EReal} (hx : x ≠ ⊥) : 0 < Ideal.exp x := by
  induction x using EReal.rec with
  | bot => exact absurd rfl hx
  | coe r => rw [Ideal.exp_coe]; exact EReal.coe_pos.mpr (Real.exp_pos r)
  | top => rw [Ideal.exp_top]; exact EReal.zero_lt_top

/-- A real number less anything other than +∞ is not −∞. -/
theorem coe_sub_ne_bot (r : ℝ) {y : EReal} (hy : y ≠ ⊤) : (r : EReal) - y ≠ ⊥ := by
  induction y using EReal.rec with
  | bot => rw [EReal.coe_sub_bot]; exact top_ne_bot
  | coe t => rw [← EReal.coe_sub]; exact EReal.coe_ne_bot _
  | top => exact absurd rfl hy

/-- Every weight of a row of real scores is positive. -/
theorem weight_pos (s : Fin M → EReal) (hs : ∀ m, ∃ r : ℝ, s m = (r : EReal)) (m : Fin M) :
    0 < Ideal.exp (s m - rowMax s) := by
  obtain ⟨r, hr⟩ := hs m
  rw [hr]
  exact exp_pos_of_ne_bot (coe_sub_ne_bot r (rowMax_ne_top s hs))

/-- The weights of a non-empty row of real scores have a positive sum. -/
theorem weights_sum_pos (hM : 0 < M) (s : Fin M → EReal) (hs : ∀ m, ∃ r : ℝ, s m = (r : EReal)) :
    0 < ∑ j : Fin M, Ideal.exp (s j - rowMax s) :=
  lt_of_lt_of_le (weight_pos s hs ⟨0, hM⟩)
    (Finset.single_le_sum (f := fun j => Ideal.exp (s j - rowMax s)) (fun j _ => (weight_pos s hs j).le)
      (Finset.mem_univ _))

end Head

/-- For a non-empty table of real numbers the two spellings of one head agree, the first with the 16-bit scale word
    0x3E00, the second with the 32-bit scale word 0x3E000000 (both denote 1/8). -/
theorem attnK_eq_attnR {M D : ℕ} (hM : 0 < M) (a : Fin M → Fin D → EReal) (ha : ∀ m k, ∃ r : ℝ, a m k = (r : EReal))
    (n : Fin M) (k : Fin D) :
    attnK (Ideal.ofBits .bf16 0x3E00#16) a n k = attnR (Ideal.ofBits .f32 0x3E000000#32) a n k := by
  rw [scale_bf16, scale_f32]
  have hc : (0 : EReal) ≤ ((1 / 8 : ℝ) : EReal) := EReal.coe_nonneg.mpr (by norm_num)
  have hL := weights_sum_pos hM (scoreR ((1 / 8 : ℝ) : EReal) a n) (scoreR_real (1 / 8) a ha n)
  unfold attnK attnQ attnR
  change Ideal.div (∑ m : Fin M, Ideal.exp (scoreK _ a n m - rowMax (scoreK _ a n)) * a m k)
    (∑ m : Fin M, Ideal.exp (scoreK _ a n m - rowMax (scoreK _ a n))) = _
  rw [scoreK_eq_scoreR hc (EReal.coe_ne_top _) a n]
  rw [← Cert.SumDiv.sum_div_mul (fun m => a m k) _ hL]
  exact Finset.sum_congr rfl fun m _ => mul_comm _ _

end Cert.Attn

end
-- ==== Proof.Bridge.lean ====
/-
  The two spellings of the operator agree on arrays of real numbers.

  Scaling a row before an inner product or the inner product afterwards is the same on all extended reals, because the
  scale 1/8 is a non-negative number other than +∞. Dividing the weighted sum once, or every weight before the sum, is
  the same when the divisor is positive; the divisor is a sum of exponentials of real numbers, each positive, and the
  scores are real because tokens and weights are.
-/
import proofs.«412328_j29764123361749_3_alg».proof.Proof.Spec
import proofs.«412328_j29764123361749_3_alg».proof.Proof.LibSumDiv
import proofs.«412328_j29764123361749_3_alg».proof.Proof.BridgeHead
import Mathlib.Data.EReal.Basic

noncomputable section

namespace Cert.Attn

open Idealize.ShloMosaic Idealize.ShloMosaic.ValueIdx Idealize.ShloMosaic.Rows

/-- Every entry is a real number. -/
def AllReal {S : Shape} (x : S.Idx → EReal) : Prop := ∀ i, ∃ r : ℝ, x i = (r : EReal)

/-! ## The coordinate maps invert each other -/

theorem rowB_mkRow (b : Fin 2) (n : Fin 2048) : rowB (mkRow b n) = b := by
  apply Fin.ext
  have hb := b.isLt
  have hn := n.isLt
  simp only [rowB, mkRow]
  omega

theorem rowN_mkRow (b : Fin 2) (n : Fin 2048) : rowN (mkRow b n) = n := by
  apply Fin.ext
  have hb := b.isLt
  have hn := n.isLt
  simp only [rowN, mkRow]
  omega

theorem grpB_mkGrp (b : Fin 2) (h : Fin 16) : grpB (mkGrp b h) = b := by
  apply Fin.ext
  have hb := b.isLt
  have hh := h.isLt
  simp only [grpB, mkGrp]
  omega

theorem grpH_mkGrp (b : Fin 2) (h : Fin 16) : grpH (mkGrp b h) = h := by
  apply Fin.ext
  have hb := b.isLt
  have hh := h.isLt
  simp only [grpH, mkGrp]
  omega

/-! ## The table of one head -/

/-- Head group 16·b + h of the re-laid-out shared projection is the table of head (b, h). -/
theorem heads_projT_flat (X : Tok) (Wm : Wgt) (b : Fin 2) (h : Fin 16) :
    (fun (m : Fin 2048) (k : Fin 64) => heads (projT (flat X) Wm) (ix3 (mkGrp b h) m k)) = headTable X Wm b h := by
  funext m k
  unfold heads projT flat headTable
  show ∑ d : Fin 1024, X (ix3 (rowB (mkRow (grpB (mkGrp b h)) m)) (rowN (mkRow (grpB (mkGrp b h)) m)) d)
      * Wm (ix2 (mkCol (grpH (mkGrp b h)) k) d) = _
  rw [grpB_mkGrp, grpH_mkGrp, rowB_mkRow, rowN_mkRow]

/-- A finite sum of products of real numbers is a real number. -/
theorem real_sum_mul {ι : Type} (s : Finset ι) (f g : ι → EReal) (hf : ∀ d, ∃ r : ℝ, f d = (r : EReal))
    (hg : ∀ d, ∃ r : ℝ, g d = (r : EReal)) : ∃ r : ℝ, ∑ d ∈ s, f d * g d = (r : EReal) := by
  classical
  induction s using Finset.induction_on with
  | empty => exact ⟨0, by simp⟩
  | insert a s ha ih =>
    obtain ⟨r, hr⟩ := ih
    obtain ⟨x, hx⟩ := hf a
    obtain ⟨y, hy⟩ := hg a
    refine ⟨x * y + r, ?_⟩
    rw [Finset.sum_insert ha, hr, hx, hy, EReal.coe_add, EReal.coe_mul]

/-- The table of one head is real when tokens and weights are. -/
theorem headTable_real (X : Tok) (Wm : Wgt) (hX : AllReal X) (hW : AllReal Wm) (b : Fin 2) (h : Fin 16)
    (n : Fin 2048) (k : Fin 64) : ∃ r : ℝ, headTable X Wm b h n k = (r : EReal) := by
  unfold headTable
  exact real_sum_mul Finset.univ (fun d => X (ix3 b n d)) (fun d => Wm (ix2 (mkCol h k) d))
    (fun d => hX _) (fun d => hW _)

/-- On real tokens and weights the layer-by-layer spelling with the 16-bit scale word and the entry-by-entry spelling with
    the 32-bit scale word are the same array (both words denote 1/8). -/
theorem kernelSpec_eq_refSpec (X : Tok) (Wm : Wgt) (hX : AllReal X) (hW : AllReal Wm) :
    kernelSpec (Ideal.ofBits .bf16 0x3E00#16) X Wm = refSpec (Ideal.ofBits .f32 0x3E000000#32) X Wm := by
  funext i
  obtain ⟨b, n, d, rfl⟩ : ∃ (b : Fin 2) (n : Fin 2048) (d : Fin 1024), i = ix3 b n d := ⟨i 0, i 1, i 2, eq_ix3 i⟩
  unfold kernelSpec unflat projP unheads attnAll refSpec
  show ∑ e : Fin 1024,
      attnK (Ideal.ofBits .bf16 0x3E00#16)
        (fun m k => heads (projT (flat X) Wm) (ix3 (mkGrp (rowB (mkRow b n)) (colH e)) m k))
        (rowN (mkRow b n)) (colK e) * Wm (ix2 e d)
    = ∑ e : Fin 1024,
      attnR (Ideal.ofBits .f32 0x3E000000#32) (headTable X Wm b (colH e)) n (colK e) * Wm (ix2 e d)
  refine Finset.sum_congr rfl fun e _ => ?_
  refine congrArg (· * Wm (ix2 e d)) ?_
  rw [rowB_mkRow, rowN_mkRow, heads_projT_flat]
  exact attnK_eq_attnR (by decide) (headTable X Wm b (colH e)) (headTable_real X Wm hX hW b (colH e)) n (colK e)

end Cert.Attn

end
-- ==== Proof.Finite.lean ====
/-
  The precondition, read: an array all of whose entries have absolute value below +∞ holds only real numbers.
-/
import proofs.«412328_j29764123361749_3_alg».proof.Pre_finite_inputs
import proofs.«412328_j29764123361749_3_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- The scalar shape has a single index. -/
instance : Subsingleton Cert.Pre_finite_inputs.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison |x| < +∞ printed as a one-bit word, read back. -/
theorem real_of_cmp (x : Ideal .f32)
    (h : FloatOps.cmpf .olt (FloatOps.hostAbsf x) (Ideal.ofBits .f32 0x7F800000#32) = 1#1) :
    ∃ r : ℝ, x = (r : EReal) := by
  change Ideal.cmp .olt (max x (-x)) (Ideal.ofBits .f32 0x7F800000#32) = 1#1 at h
  rw [ofBits_inf] at h
  refine real_of_abs_lt_top x ?_
  by_contra hn
  simp [Ideal.cmp, hn] at h

/-- If the finiteness predicate of the two argument arrays is all ones, every entry of both is a real number. -/
theorem real_of_pre [Cert.Pre_finite_inputs.Facts] (x0 : FVec Ideal Cert.Pre_finite_inputs.S2x2048x1024 .f32) (x1 : FVec Ideal Cert.Pre_finite_inputs.S1024x1024 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_cmp (x0 i) e
  · have e := Host.reduce_andi_all _ _ _ _ _ hb i
    exact real_of_cmp (x1 i) e

end Cert.Finite

end
-- ==== Proof.lean ====
/-
  A Pallas multi-head self-attention in which one weight matrix W serves as the query, key and value projection and,
  used the other way round, as the output projection, against its jnp reference: equal results over the extended reals
  for finite inputs.

  Both programs compute, for tokens X (2 × 2048 × 1024) and weights W (1024 × 1024),
    Z = X · Wᵀ,  split into 16 heads of width 64;  per head, scores S = (A · Aᵀ)/8, weights P = exp (S − max S) row by
    row, O = (P · A) / (row sums of P);  the heads joined;  out = O · W.
  The kernel does it in three tiled calls (the projection in blocks of 1024 rows; attention per head and block of 512
  query rows, the query block a slice of the resident key/value table, the query scaled by 1/8 before the product and
  the weighted sum divided once by the sum of the weights; the output projection in blocks of 1024 rows), with
  re-layouts between them; the reference scales the scores after the product and divides every weight before the
  weighted sum. At the ideal values a change of float format is the identity, so the two differ only by
    (q · c) · k summed  versus  (q · k summed) · c        — equal on all extended reals since c = 1/8 ≥ 0 is not +∞ —
    (∑ p · a) / l        versus  ∑ (p / l) · a             — equal when l > 0,
  and l is a sum of exponentials of real numbers because finite inputs make every score real.

  The frames of the two kernel programs are the generated ones; the reference's frame is its generated run with the
  result dropped; the ideal pass rewrote nothing. The kernel's value is read through its three regions
  (KernelValue.lean), the reference's through its operations (RefValue.lean), the two spellings joined in Bridge.lean,
  the precondition read in Finite.lean.
-/
import proofs.«412328_j29764123361749_3_alg».proof.Defs
import proofs.«412328_j29764123361749_3_alg».proof.Proof.Gen.Kernel
import proofs.«412328_j29764123361749_3_alg».proof.Proof.Gen.Kernel.Skeleton
import proofs.«412328_j29764123361749_3_alg».proof.Proof.Gen.Kernel.Launch
import proofs.«412328_j29764123361749_3_alg».proof.Proof.Gen.Kernel.Points
import proofs.«412328_j29764123361749_3_alg».proof.Proof.Gen.Kernel.Frame
import proofs.«412328_j29764123361749_3_alg».proof.Proof.Gen.KernelIdeal
import proofs.«412328_j29764123361749_3_alg».proof.Proof.Gen.KernelIdeal.Skeleton
import proofs.«412328_j29764123361749_3_alg».proof.Proof.Gen.KernelIdeal.Launch
import proofs.«412328_j29764123361749_3_alg».proof.Proof.Gen.KernelIdeal.Points
import proofs.«412328_j29764123361749_3_alg».proof.Proof.Gen.KernelIdeal.Frame
import proofs.«412328_j29764123361749_3_alg».proof.Proof.Gen.ReferenceIdeal
import proofs.«412328_j29764123361749_3_alg».proof.Proof.Gen.ReferenceIdeal.Run
import proofs.«412328_j29764123361749_3_alg».proof.Proof.Gen.ReferenceIdeal.Read
import proofs.«412328_j29764123361749_3_alg».proof.Proof.Gen.Pre_finite_inputs
import proofs.«412328_j29764123361749_3_alg».proof.Proof.KernelValue
import proofs.«412328_j29764123361749_3_alg».proof.Proof.RefValue
import proofs.«412328_j29764123361749_3_alg».proof.Proof.Bridge
import proofs.«412328_j29764123361749_3_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run with its results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- From memories agreeing on finite arguments both programs end with the layer-by-layer spelling of the operator in the
    result: the kernel by its three regions, the reference by its operations and the equality of the two spellings on
    real arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.kernelSpec Cert.KernelIdeal.KernelValue.scale
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Attn.kernelSpec Cert.KernelIdeal.KernelValue.scale
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c => ⟨(h c).1, (h c).1, (h c).2.1, (h c).2.2⟩)
      (Cert.KernelIdeal.KernelValue.run m ρ)
  · refine (θ_run Cert.ReferenceIdeal.defs _ _).mono (fun r h c => ?_)
      (Cert.ReferenceIdeal.Value.run (F := Ideal) m' ρ')
    obtain ⟨hX, hW⟩ := Cert.Finite.real_of_pre _ _ (hpre c)
    have e : Cert.ReferenceIdeal.Value.res_main_v20 m' c
        = Cert.Attn.kernelSpec Cert.KernelIdeal.KernelValue.scale
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) := by
      rw [Cert.ReferenceIdeal.Read.val_main_v20_eq, Cert.ReferenceIdeal.RefValue.ref_eq, (hagree c).1, (hagree c).2]
      exact (Cert.Attn.kernelSpec_eq_refSpec _ _ hX hW).symm
    exact ⟨(h c).1.trans e, (h c).2.1.trans e, (h c).2.2.1, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
